-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S3x16384 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S3x64 : Shape := ⟨2, ![3, 64]⟩
abbrev S1x64 : Shape := ⟨2, ![1, 64]⟩
abbrev S64x256 : Shape := ⟨2, ![64, 256]⟩
abbrev S1x256 : Shape := ⟨2, ![1, 256]⟩
abbrev S256x1 : Shape := ⟨2, ![256, 1]⟩
abbrev S1x1 : Shape := ⟨2, ![1, 1]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S1x64 : S_.BroadcastsInDim S1x64 (![] : Fin 0 → Fin S1x64.rank)
  reducesTo_S1x64_S_d0_1 : S1x64.ReducesTo [0, 1] S_
  bcast_S_S64x256 : S_.BroadcastsInDim S64x256 (![] : Fin 0 → Fin S64x256.rank)
  reducesTo_S64x256_S_d0_1 : S64x256.ReducesTo [0, 1] S_
  bcast_S_S1x256 : S_.BroadcastsInDim S1x256 (![] : Fin 0 → Fin S1x256.rank)
  reducesTo_S1x256_S_d0_1 : S1x256.ReducesTo [0, 1] S_
  bcast_S_S256x1 : S_.BroadcastsInDim S256x1 (![] : Fin 0 → Fin S256x1.rank)
  reducesTo_S256x1_S_d0_1 : S256x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S256x1 .f32) (main_arg8 : FVec F S1x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  main_v43

def fn_part1 {F : FTy → Type} [FloatOps F] (main_arg4 : FVec F S1x256 .f32) (main_arg5 : FVec F S256x1 .f32) (main_arg6 : FVec F S1x1 .f32) (main_arg7 : FVec F S256x1 .f32) (main_arg8 : FVec F S1x1 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg7 main_arg8 main_v33

def fn {F : FTy → Type} [FloatOps F] (main_arg0 : FVec F S2097152x3 .f32) (main_arg1 : FVec F S3x64 .f32) (main_arg2 : FVec F S1x64 .f32) (main_arg3 : FVec F S64x256 .f32) (main_arg4 : FVec F S1x256 .f32) (main_arg5 : FVec F S256x1 .f32) (main_arg6 : FVec F S1x1 .f32) (main_arg7 : FVec F S256x1 .f32) (main_arg8 : FVec F S1x1 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_v13 main_v16
-- ==== Kernel.lean ====
abbrev S2097152x3 : Shape := ⟨2, ![2097152, 3]⟩
abbrev S3x64 : Shape := ⟨2, ![3, 64]⟩
abbrev S1x64 : Shape := ⟨2, ![1, 64]⟩
abbrev S64x256 : Shape := ⟨2, ![64, 256]⟩
abbrev S1x256 : Shape := ⟨2, ![1, 256]⟩
abbrev S256x1 : Shape := ⟨2, ![256, 1]⟩
abbrev S1x1 : Shape := ⟨2, ![1, 1]⟩
abbrev S3x2097152 : Shape := ⟨2, ![3, 2097152]⟩
abbrev S64x3 : Shape := ⟨2, ![64, 3]⟩
abbrev S64x1 : Shape := ⟨2, ![64, 1]⟩
abbrev S64x11 : Shape := ⟨2, ![64, 11]⟩
abbrev S256x64 : Shape := ⟨2, ![256, 64]⟩
abbrev S256x66 : Shape := ⟨2, ![256, 66]⟩
abbrev S256x2 : Shape := ⟨2, ![256, 2]⟩
abbrev S2x256 : Shape := ⟨2, ![2, 256]⟩
abbrev S1x2 : Shape := ⟨2, ![1, 2]⟩
abbrev S2x1 : Shape := ⟨2, ![2, 1]⟩
abbrev S1x2097152 : Shape := ⟨2, ![1, 2097152]⟩
abbrev S3x16384 : Shape := ⟨2, ![3, 16384]⟩
abbrev S1x16384 : Shape := ⟨2, ![1, 16384]⟩
abbrev S2x16384 : Shape := ⟨2, ![2, 16384]⟩
abbrev S11x16384 : Shape := ⟨2, ![11, 16384]⟩
abbrev S64x16384 : Shape := ⟨2, ![64, 16384]⟩
abbrev S66x16384 : Shape := ⟨2, ![66, 16384]⟩
abbrev S256x16384 : Shape := ⟨2, ![256, 16384]⟩
abbrev S2097152x1 : Shape := ⟨2, ![2097152, 1]⟩

abbrev nBuf : Space → Nat
  | .hbm => 38
  | .vmem => 10
  | .smem => 0
  | _ => 0

abbrev bufTy : (tb : Table) → Fin (tcTables nBuf tb) → BufTy
  | .hbm, ⟨0, _⟩ => ⟨S2097152x3, .f32⟩
  | .hbm, ⟨1, _⟩ => ⟨S3x64, .f32⟩
  | .hbm, ⟨2, _⟩ => ⟨S1x64, .f32⟩
  | .hbm, ⟨3, _⟩ => ⟨S64x256, .f32⟩
  | .hbm, ⟨4, _⟩ => ⟨S1x256, .f32⟩
  | .hbm, ⟨5, _⟩ => ⟨S256x1, .f32⟩
  | .hbm, ⟨6, _⟩ => ⟨S1x1, .f32⟩
  | .hbm, ⟨7, _⟩ => ⟨S256x1, .f32⟩
  | .hbm, ⟨8, _⟩ => ⟨S1x1, .f32⟩
  | .hbm, ⟨9, _⟩ => ⟨S3x2097152, .f32⟩
  | .hbm, ⟨10, _⟩ => ⟨S64x3, .f32⟩
  | .hbm, ⟨11, _⟩ => ⟨S64x3, .bf16⟩
  | .hbm, ⟨12, _⟩ => ⟨S64x3, .f32⟩
  | .hbm, ⟨13, _⟩ => ⟨S64x3, .f32⟩
  | .hbm, ⟨14, _⟩ => ⟨S64x3, .bf16⟩
  | .hbm, ⟨15, _⟩ => ⟨S64x1, .f32⟩
  | .hbm, ⟨16, _⟩ => ⟨S64x1, .bf16⟩
  | .hbm, ⟨17, _⟩ => ⟨S64x1, .f32⟩
  | .hbm, ⟨18, _⟩ => ⟨S64x1, .f32⟩
  | .hbm, ⟨19, _⟩ => ⟨S64x1, .bf16⟩
  | .hbm, ⟨20, _⟩ => ⟨S64x11, .bf16⟩
  | .hbm, ⟨21, _⟩ => ⟨S256x1, .f32⟩
  | .hbm, ⟨22, _⟩ => ⟨S256x1, .bf16⟩
  | .hbm, ⟨23, _⟩ => ⟨S256x1, .f32⟩
  | .hbm, ⟨24, _⟩ => ⟨S256x1, .f32⟩
  | .hbm, ⟨25, _⟩ => ⟨S256x1, .bf16⟩
  | .hbm, ⟨26, _⟩ => ⟨S256x64, .f32⟩
  | .hbm, ⟨27, _⟩ => ⟨S256x64, .bf16⟩
  | .hbm, ⟨28, _⟩ => ⟨S256x66, .bf16⟩
  | .hbm, ⟨29, _⟩ => ⟨S256x2, .f32⟩
  | .hbm, ⟨30, _⟩ => ⟨S2x256, .f32⟩
  | .hbm, ⟨31, _⟩ => ⟨S2x256, .bf16⟩
  | .hbm, ⟨32, _⟩ => ⟨S1x2, .f32⟩
  | .hbm, ⟨33, _⟩ => ⟨S2x1, .f32⟩
  | .hbm, ⟨34, _⟩ => ⟨S1x2097152, .f32⟩
  | .hbm, ⟨35, _⟩ => ⟨S1x2097152, .f32⟩
  | .hbm, ⟨36, _⟩ => ⟨S2097152x1, .f32⟩
  | .hbm, ⟨37, _⟩ => ⟨S2097152x1, .f32⟩
  | .local _ .vmem, ⟨0, _⟩ => ⟨S3x16384, .f32⟩
  | .local _ .vmem, ⟨1, _⟩ => ⟨S3x16384, .f32⟩
  | .local _ .vmem, ⟨2, _⟩ => ⟨S64x11, .bf16⟩
  | .local _ .vmem, ⟨3, _⟩ => ⟨S256x66, .bf16⟩
  | .local _ .vmem, ⟨4, _⟩ => ⟨S2x256, .bf16⟩
  | .local _ .vmem, ⟨5, _⟩ => ⟨S2x1, .f32⟩
  | .local _ .vmem, ⟨6, _⟩ => ⟨S1x16384, .f32⟩
  | .local _ .vmem, ⟨7, _⟩ => ⟨S1x16384, .f32⟩
  | .local _ .vmem, ⟨8, _⟩ => ⟨S1x16384, .f32⟩
  | .local _ .vmem, ⟨9, _⟩ => ⟨S1x16384, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x11 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x66 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2097152x3_S3x2097152_1_0 : S2097152x3.Transposes [1, 0] S3x2097152
  transposes_S3x64_S64x3_1_0 : S3x64.Transposes [1, 0] S64x3
  bitsLt_bf16_f32 : FTy.bits .bf16 < FTy.bits .f32
  shapeCasts_S1x64_S64x1 : S1x64.ShapeCasts S64x1
  concatenates_S64x3_S64x3_S64x3_S64x1_S64x1_S64x11_d1 : Shape.Concatenates [S64x3, S64x3, S64x3, S64x1, S64x1] S64x11 1
  shapeCasts_S1x256_S256x1 : S1x256.ShapeCasts S256x1
  transposes_S64x256_S256x64_1_0 : S64x256.Transposes [1, 0] S256x64
  concatenates_S256x64_S256x1_S256x1_S256x66_d1 : Shape.Concatenates [S256x64, S256x1, S256x1] S256x66 1
  concatenates_S256x1_S256x1_S256x2_d1 : Shape.Concatenates [S256x1, S256x1] S256x2 1
  transposes_S256x2_S2x256_1_0 : S256x2.Transposes [1, 0] S2x256
  concatenates_S1x1_S1x1_S1x2_d1 : Shape.Concatenates [S1x1, S1x1] S1x2 1
  transposes_S1x2_S2x1_1_0 : S1x2.Transposes [1, 0] S2x1
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  concatenates_S3x16384_S3x16384_S3x16384_S2x16384_S11x16384_d0 : Shape.Concatenates [S3x16384, S3x16384, S3x16384, S2x16384] S11x16384 0
  inb_S64x11_S64x11_0_0 : ∀ a, (![0, 0] : Fin 2 → Nat) a + S64x11.size a ≤ S64x11.size a
  h_S64x11 : 0 < S64x11.numel
  shapeCasts_S64x11_S64x11 : S64x11.ShapeCasts S64x11
  concatenates_S64x16384_S2x16384_S66x16384_d0 : Shape.Concatenates [S64x16384, S2x16384] S66x16384 0
  inb_S256x66_S256x66_0_0 : ∀ a, (![0, 0] : Fin 2 → Nat) a + S256x66.size a ≤ S256x66.size a
  h_S256x66 : 0 < S256x66.numel
  shapeCasts_S256x66_S256x66 : S256x66.ShapeCasts S256x66
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x16384 : S2x1.Broadcasts S2x16384
  slices_S2x16384_o0_0_S1x16384 : S2x16384.Slices ![0, 0] S1x16384
  inb_S1x16384_S1x16384_0_0 : ∀ a, (![0, 0] : Fin 2 → Nat) a + S1x16384.size a ≤ S1x16384.size a
  h_S1x16384 : 0 < S1x16384.numel
  slices_S2x16384_o1_0_S1x16384 : S2x16384.Slices ![1, 0] S1x16384
  shapeCasts_S1x2097152_S2097152x1 : S1x2097152.ShapeCasts S2097152x1
  dot_S64x11_S11x16384_S64x16384_1_0_0_1_n_n_wf : DotDims.WF S64x11 S11x16384 S64x16384 [1] [0] [0] [1] [] []
  dot_S256x66_S66x16384_S256x16384_1_0_0_1_n_n_wf : DotDims.WF S256x66 S66x16384 S256x16384 [1] [0] [0] [1] [] []
  dot_S2x256_S256x16384_S2x16384_1_0_0_1_n_n_wf : DotDims.WF S2x256 S256x16384 S2x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x2097152.size a
  hwx0_0 : ∀ i : grid0.Coords, EltTy.bits .f32 = 32 ∨ (Rect.block (s := S3x2097152) S3x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x11.size a ≤ S64x11.size a
  hwx0_1 : ∀ i : grid0.Coords, EltTy.bits .bf16 = 32 ∨ (Rect.block (s := S64x11) S64x11.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x66.size a ≤ S256x66.size a
  hwx0_2 : ∀ i : grid0.Coords, EltTy.bits .bf16 = 32 ∨ (Rect.block (s := S256x66) S256x66.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x256.size a
  hwx0_3 : ∀ i : grid0.Coords, EltTy.bits .bf16 = 32 ∨ (Rect.block (s := S2x256) S2x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16384.size a ≤ S1x2097152.size a
  hwx0_5 : ∀ i : grid0.Coords, EltTy.bits .f32 = 32 ∨ (Rect.block (s := S1x2097152) S1x16384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16384.size a ≤ S1x2097152.size a
  hwx0_6 : ∀ i : grid0.Coords, EltTy.bits .f32 = 32 ∨ (Rect.block (s := S1x2097152) S1x16384.size (cc0_transform_6 i) (hinb0_6 i)).WholeWords (EltTy.packing .f32)

variable [Facts₀]

def dot_S64x11_S11x16384_S64x16384_1_0_0_1_n_n : DotDims S64x11 S11x16384 S64x16384 where
  lhsContracting := [1]
  rhsContracting := [0]
  lhsNonContracting := [0]
  rhsNonContracting := [1]
  lhsBatch := []
  rhsBatch := []
  wf := dot_S64x11_S11x16384_S64x16384_1_0_0_1_n_n_wf
def dot_S256x66_S66x16384_S256x16384_1_0_0_1_n_n : DotDims S256x66 S66x16384 S256x16384 where
  lhsContracting := [1]
  rhsContracting := [0]
  lhsNonContracting := [0]
  rhsNonContracting := [1]
  lhsBatch := []
  rhsBatch := []
  wf := dot_S256x66_S66x16384_S256x16384_1_0_0_1_n_n_wf
def dot_S2x256_S256x16384_S2x16384_1_0_0_1_n_n : DotDims S2x256 S256x16384 S2x16384 where
  lhsContracting := [1]
  rhsContracting := [0]
  lhsNonContracting := [0]
  rhsNonContracting := [1]
  lhsBatch := []
  rhsBatch := []
  wf := dot_S2x256_S256x16384_S2x16384_1_0_0_1_n_n_wf

abbrev win0_0 : Pipeline.Window sig grid0 :=
  Pipeline.Window.ofSpec (Memref.whole main_v0) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x11.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x66.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S1x16384.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x16384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S3x64 : Shape := ⟨2, ![3, 64]⟩
abbrev S1x64 : Shape := ⟨2, ![1, 64]⟩
abbrev S64x256 : Shape := ⟨2, ![64, 256]⟩
abbrev S1x256 : Shape := ⟨2, ![1, 256]⟩
abbrev S256x1 : Shape := ⟨2, ![256, 1]⟩
abbrev S1x1 : Shape := ⟨2, ![1, 1]⟩
abbrev S256x2 : Shape := ⟨2, ![256, 2]⟩
abbrev S1x2 : Shape := ⟨2, ![1, 2]⟩
abbrev S2097152x2 : Shape := ⟨2, ![2097152, 2]⟩
abbrev S2048x3 : Shape := ⟨2, ![2048, 3]⟩
abbrev S2048x2 : Shape := ⟨2, ![2048, 2]⟩
abbrev S2048x1 : Shape := ⟨2, ![2048, 1]⟩
abbrev S2048x64 : Shape := ⟨2, ![2048, 64]⟩
abbrev S2048x256 : Shape := ⟨2, ![2048, 256]⟩
abbrev S2097152x1 : Shape := ⟨2, ![2097152, 1]⟩

abbrev nBuf : Space → Nat
  | .hbm => 14
  | .vmem => 10
  | .smem => 0
  | _ => 0

abbrev bufTy : (tb : Table) → Fin (tcTables nBuf tb) → BufTy
  | .hbm, ⟨0, _⟩ => ⟨S2097152x3, .f32⟩
  | .hbm, ⟨1, _⟩ => ⟨S3x64, .f32⟩
  | .hbm, ⟨2, _⟩ => ⟨S1x64, .f32⟩
  | .hbm, ⟨3, _⟩ => ⟨S64x256, .f32⟩
  | .hbm, ⟨4, _⟩ => ⟨S1x256, .f32⟩
  | .hbm, ⟨5, _⟩ => ⟨S256x1, .f32⟩
  | .hbm, ⟨6, _⟩ => ⟨S1x1, .f32⟩
  | .hbm, ⟨7, _⟩ => ⟨S256x1, .f32⟩
  | .hbm, ⟨8, _⟩ => ⟨S1x1, .f32⟩
  | .hbm, ⟨9, _⟩ => ⟨S256x2, .f32⟩
  | .hbm, ⟨10, _⟩ => ⟨S1x2, .f32⟩
  | .hbm, ⟨11, _⟩ => ⟨S2097152x2, .f32⟩
  | .hbm, ⟨12, _⟩ => ⟨S2097152x1, .f32⟩
  | .hbm, ⟨13, _⟩ => ⟨S2097152x1, .f32⟩
  | .local _ .vmem, ⟨0, _⟩ => ⟨S2048x3, .f32⟩
  | .local _ .vmem, ⟨1, _⟩ => ⟨S2048x3, .f32⟩
  | .local _ .vmem, ⟨2, _⟩ => ⟨S3x64, .f32⟩
  | .local _ .vmem, ⟨3, _⟩ => ⟨S1x64, .f32⟩
  | .local _ .vmem, ⟨4, _⟩ => ⟨S64x256, .f32⟩
  | .local _ .vmem, ⟨5, _⟩ => ⟨S1x256, .f32⟩
  | .local _ .vmem, ⟨6, _⟩ => ⟨S256x2, .f32⟩
  | .local _ .vmem, ⟨7, _⟩ => ⟨S1x2, .f32⟩
  | .local _ .vmem, ⟨8, _⟩ => ⟨S2048x2, .f32⟩
  | .local _ .vmem, ⟨9, _⟩ => ⟨S2048x2, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x1_S256x1_S256x2_d1 : Shape.Concatenates [S256x1, S256x1] S256x2 1
  concatenates_S1x1_S1x1_S1x2_d1 : Shape.Concatenates [S1x1, S1x1] S1x2 1
  inb_S2048x3_S2048x3_0_0 : ∀ a, (![0, 0] : Fin 2 → Nat) a + S2048x3.size a ≤ S2048x3.size a
  h_S2048x3 : 0 < S2048x3.numel
  inb_S3x64_S3x64_0_0 : ∀ a, (![0, 0] : Fin 2 → Nat) a + S3x64.size a ≤ S3x64.size a
  h_S3x64 : 0 < S3x64.numel
  slices_S2048x3_o0_0_S2048x1 : S2048x3.Slices ![0, 0] S2048x1
  slices_S3x64_o0_0_S1x64 : S3x64.Slices ![0, 0] S1x64
  broadcasts_S2048x1_S2048x64 : S2048x1.Broadcasts S2048x64
  broadcasts_S1x64_S2048x64 : S1x64.Broadcasts S2048x64
  slices_S2048x3_o0_1_S2048x1 : S2048x3.Slices ![0, 1] S2048x1
  slices_S3x64_o1_0_S1x64 : S3x64.Slices ![1, 0] S1x64
  slices_S2048x3_o0_2_S2048x1 : S2048x3.Slices ![0, 2] S2048x1
  slices_S3x64_o2_0_S1x64 : S3x64.Slices ![2, 0] S1x64
  inb_S1x64_S1x64_0_0 : ∀ a, (![0, 0] : Fin 2 → Nat) a + S1x64.size a ≤ S1x64.size a
  h_S1x64 : 0 < S1x64.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  iota_S2048x2_d1_w32 : S2048x2.Iotas .tc 32 [1]
  inb_S2048x2_S2048x2_0_0 : ∀ a, (![0, 0] : Fin 2 → Nat) a + S2048x2.size a ≤ S2048x2.size a
  h_S2048x2 : 0 < S2048x2.numel
  slices_S2097152x2_S2097152x1_0_0 : S2097152x2.Slices ![0, 0] S2097152x1
  slices_S2097152x2_S2097152x1_0_1 : S2097152x2.Slices ![0, 1] S2097152x1
  dot_S2048x64_S64x256_S2048x256_1_0_0_1_n_n_wf : DotDims.WF S2048x64 S64x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S2097152x3.size a
  hwx0_0 : ∀ i : grid0.Coords, EltTy.bits .f32 = 32 ∨ (Rect.block (s := S2097152x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x2.size a ≤ S2097152x2.size a
  hwx0_7 : ∀ i : grid0.Coords, EltTy.bits .f32 = 32 ∨ (Rect.block (s := S2097152x2) S2048x2.size (cc0_transform_7 i) (hinb0_7 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.KFrame.lean ====
import proofs.«155359_g2000502678189943_pallasbulk_312_17_alg».proof.Proof.Gen.KernelIdeal.Launch
import proofs.«155359_g2000502678189943_pallasbulk_312_17_alg».proof.Proof.Gen.KernelIdeal.Skeleton
import proofs.«155359_g2000502678189943_pallasbulk_312_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the transposed policy network's program: the host lines that lay the operands out
    (transposes, the split of each weight into a leading part and a remainder, the stacked operand
    matrices), the one region over 128 batch tiles of 16384 columns, and the two reshapes after it.

    Each of the five operand windows is found at its block of the array the host lines left; each of
    the two result windows ends a point at the one store the body makes into it, a function of the
    five operand blocks alone.  From that: every weakly fair execution ends, nothing faults, the nine
    argument arrays are never written, and each result array after the region is the blocks the
    points wrote. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the 25 host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two reshapes touch only the region's arrays and buffers no window stages. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does a reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does a reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does a reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does a reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does a reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does a reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does a reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does a reshape after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Operand window 0's staging buffer holds its block at every point, whether or not that point fetched it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand window 1's staging buffer holds its block at every point, whether or not that point fetched it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand window 2's staging buffer holds its block at every point, whether or not that point fetched it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand window 3's staging buffer holds its block at every point, whether or not that point fetched it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Operand window 4's staging buffer holds its block at every point, whether or not that point fetched it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run that ends with every array of the region at what the points wrote and every other buffer as
    the reshapes leave it: no argument array is a window's array, so each ends as the lines after the region
    leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c))⟩) h

/-! ## The body's accesses -/

abbrev r0_0 : Rect S3x16384 := Rect.unit (s := S3x16384) ![0, 0] S3x16384.size inb_S3x16384_S3x16384_0_0
abbrev r0_1 : Rect S64x11 := Rect.unit (s := S64x11) ![0, 0] S64x11.size inb_S64x11_S64x11_0_0
abbrev r0_2 : Rect S256x66 := Rect.unit (s := S256x66) ![0, 0] S256x66.size inb_S256x66_S256x66_0_0
abbrev r0_3 : Rect S2x256 := Rect.unit (s := S2x256) ![0, 0] S2x256.size inb_S2x256_S2x256_0_0
abbrev r0_4 : Rect S2x1 := Rect.unit (s := S2x1) ![0, 0] S2x1.size inb_S2x1_S2x1_0_0
abbrev r0_5 : Rect S1x16384 := Rect.unit (s := S1x16384) ![0, 0] S1x16384.size inb_S1x16384_S1x16384_0_0
abbrev r0_6 : Rect S1x16384 := Rect.unit (s := S1x16384) ![0, 0] S1x16384.size inb_S1x16384_S1x16384_0_0

/-! ## What the body leaves in each result window's buffer -/

/-- Result window 5 after the body: its one store, of twice the hyperbolic tangent of row 0 of the head pre-activations. -/
def out0_5 (x0 : Vec F S3x16384 .f32) (x1 : Vec F S64x11 .bf16) (x2 : Vec F S256x66 .bf16) (x3 : Vec F S2x256 .bf16) (x4 : Vec F S2x1 .f32) : Vec F S1x16384 .f32 :=
  View.canon [⟨r0_5, k0_pay3 (View.ld x0 r0_0) (View.ld x1 r0_1) (View.ld x2 r0_2) (View.ld x3 r0_3) (View.ld x4 r0_4)⟩]
/-- Result window 6 after the body: its one store, of the softplus of row 1 of the head pre-activations plus the offset. -/
def out0_6 (x0 : Vec F S3x16384 .f32) (x1 : Vec F S64x11 .bf16) (x2 : Vec F S256x66 .bf16) (x3 : Vec F S2x256 .bf16) (x4 : Vec F S2x1 .f32) : Vec F S1x16384 .f32 :=
  View.canon [⟨r0_6, k0_pay1 (k0_pay4 (View.ld x0 r0_0) (View.ld x1 r0_1) (View.ld x2 r0_2) (View.ld x3 r0_3) (View.ld x4 r0_4)) (Scalar.ofBits .f32 0x00000000#32) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4))⟩]

/-- The one store covers the buffer. -/
theorem cover0_5 (p0 : Vec F S1x16384 .f32) (y : S1x16384.Idx) :
    ∃ pc ∈ ([⟨r0_5, p0⟩] : List (View.Piece (Elt F) S1x16384 .f32)), y ∈ pc.1.set :=
  View.cover_of_tiled [⟨r0_5, p0⟩] S1x16384.size (by rfl) y
theorem cover0_6 (p0 : Vec F S1x16384 .f32) (y : S1x16384.Idx) :
    ∃ pc ∈ ([⟨r0_6, p0⟩] : List (View.Piece (Elt F) S1x16384 .f32)), y ∈ pc.1.set :=
  View.cover_of_tiled [⟨r0_6, p0⟩] S1x16384.size (by rfl) y

/-! ## The body's triple -/

set_option maxHeartbeats 1000000 in
/-- The body on whole staging memrefs, the operands' at contents `xW` and the results' at anything, leaves the
    operands' as they were and each result's at `out0_W` of the operands'. -/
theorem sound_kernel (c : Dev nD) (E : Set ℕ) (i : grid0.Coords) (arg1 : Memref sig .tc .vmem S3x16384 .f32) (harg1 : arg1.IsWhole) (arg2 : Memref sig .tc .vmem S64x11 .bf16) (harg2 : arg2.IsWhole) (arg3 : Memref sig .tc .vmem S256x66 .bf16) (harg3 : arg3.IsWhole) (arg4 : Memref sig .tc .vmem S2x256 .bf16) (harg4 : arg4.IsWhole) (arg5 : Memref sig .tc .vmem S2x1 .f32) (harg5 : arg5.IsWhole) (arg6 : Memref sig .tc .vmem S1x16384 .f32) (harg6 : arg6.IsWhole) (arg7 : Memref sig .tc .vmem S1x16384 .f32) (harg7 : arg7.IsWhole)
    (x0 : Vec F S3x16384 .f32) (x1 : Vec F S64x11 .bf16) (x2 : Vec F S256x66 .bf16) (x3 : Vec F S2x256 .bf16) (x4 : Vec F S2x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__policy_kernel i arg1 harg1 arg2 harg2 arg3 harg3 arg4 harg4 arg5 harg5 arg6 harg6 arg7 harg7) K := by
  simp only [cc0__policy_kernel_eq_skeleton]; unfold cc0__policy_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  iexists _; isplitr
  swap; · iexact H6
  ipureintro
  try dsimp only
  exact View.read_writes_eq_canon _ _ _ (cover0_6 _)

/-! ## The region's proof data -/

/-- On core `c`: the arrays as the region finds them; after the body at point `t` each operand's buffer at its
    block and each result's at `out0_W` of the operand blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution ends, each array of the region at what the
    points wrote back and every other buffer as the two reshapes leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Hand

end
-- ==== Proof.KFrameBits.lean ====
import proofs.«155359_g2000502678189943_pallasbulk_312_17_alg».proof.Proof.Gen.Kernel.Launch
import proofs.«155359_g2000502678189943_pallasbulk_312_17_alg».proof.Proof.Gen.Kernel.Skeleton
import proofs.«155359_g2000502678189943_pallasbulk_312_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the transposed policy network's program: the host lines that lay the operands out
    (transposes, the split of each weight into a leading part and a remainder, the stacked operand
    matrices), the one region over 128 batch tiles of 16384 columns, and the two reshapes after it.

    Each of the five operand windows is found at its block of the array the host lines left; each of
    the two result windows ends a point at the one store the body makes into it, a function of the
    five operand blocks alone.  From that: every weakly fair execution ends, nothing faults, the nine
    argument arrays are never written, and each result array after the region is the blocks the
    points wrote. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the 25 host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two reshapes touch only the region's arrays and buffers no window stages. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does a reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does a reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does a reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does a reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does a reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does a reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does a reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does a reshape after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Operand window 0's staging buffer holds its block at every point, whether or not that point fetched it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand window 1's staging buffer holds its block at every point, whether or not that point fetched it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand window 2's staging buffer holds its block at every point, whether or not that point fetched it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand window 3's staging buffer holds its block at every point, whether or not that point fetched it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Operand window 4's staging buffer holds its block at every point, whether or not that point fetched it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run that ends with every array of the region at what the points wrote and every other buffer as
    the reshapes leave it: no argument array is a window's array, so each ends as the lines after the region
    leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c))⟩) h

/-! ## The body's accesses -/

abbrev r0_0 : Rect S3x16384 := Rect.unit (s := S3x16384) ![0, 0] S3x16384.size inb_S3x16384_S3x16384_0_0
abbrev r0_1 : Rect S64x11 := Rect.unit (s := S64x11) ![0, 0] S64x11.size inb_S64x11_S64x11_0_0
abbrev r0_2 : Rect S256x66 := Rect.unit (s := S256x66) ![0, 0] S256x66.size inb_S256x66_S256x66_0_0
abbrev r0_3 : Rect S2x256 := Rect.unit (s := S2x256) ![0, 0] S2x256.size inb_S2x256_S2x256_0_0
abbrev r0_4 : Rect S2x1 := Rect.unit (s := S2x1) ![0, 0] S2x1.size inb_S2x1_S2x1_0_0
abbrev r0_5 : Rect S1x16384 := Rect.unit (s := S1x16384) ![0, 0] S1x16384.size inb_S1x16384_S1x16384_0_0
abbrev r0_6 : Rect S1x16384 := Rect.unit (s := S1x16384) ![0, 0] S1x16384.size inb_S1x16384_S1x16384_0_0

/-! ## What the body leaves in each result window's buffer -/

/-- Result window 5 after the body: its one store, of twice the hyperbolic tangent of row 0 of the head pre-activations. -/
def out0_5 (x0 : Vec F S3x16384 .f32) (x1 : Vec F S64x11 .bf16) (x2 : Vec F S256x66 .bf16) (x3 : Vec F S2x256 .bf16) (x4 : Vec F S2x1 .f32) : Vec F S1x16384 .f32 :=
  View.canon [⟨r0_5, k0_pay3 (View.ld x0 r0_0) (View.ld x1 r0_1) (View.ld x2 r0_2) (View.ld x3 r0_3) (View.ld x4 r0_4)⟩]
/-- Result window 6 after the body: its one store, of the softplus of row 1 of the head pre-activations plus the offset. -/
def out0_6 (x0 : Vec F S3x16384 .f32) (x1 : Vec F S64x11 .bf16) (x2 : Vec F S256x66 .bf16) (x3 : Vec F S2x256 .bf16) (x4 : Vec F S2x1 .f32) : Vec F S1x16384 .f32 :=
  View.canon [⟨r0_6, k0_pay1 (k0_pay4 (View.ld x0 r0_0) (View.ld x1 r0_1) (View.ld x2 r0_2) (View.ld x3 r0_3) (View.ld x4 r0_4)) (Scalar.ofBits .f32 0x00000000#32) (k0_pay5 (View.ld x0 r0_0) (View.ld x1 r0_1) (View.ld x2 r0_2) (View.ld x3 r0_3) (View.ld x4 r0_4)) (k0_pay6 (View.ld x0 r0_0) (View.ld x1 r0_1) (View.ld x2 r0_2) (View.ld x3 r0_3) (View.ld x4 r0_4))⟩]

/-- The one store covers the buffer. -/
theorem cover0_5 (p0 : Vec F S1x16384 .f32) (y : S1x16384.Idx) :
    ∃ pc ∈ ([⟨r0_5, p0⟩] : List (View.Piece (Elt F) S1x16384 .f32)), y ∈ pc.1.set :=
  View.cover_of_tiled [⟨r0_5, p0⟩] S1x16384.size (by rfl) y
theorem cover0_6 (p0 : Vec F S1x16384 .f32) (y : S1x16384.Idx) :
    ∃ pc ∈ ([⟨r0_6, p0⟩] : List (View.Piece (Elt F) S1x16384 .f32)), y ∈ pc.1.set :=
  View.cover_of_tiled [⟨r0_6, p0⟩] S1x16384.size (by rfl) y

/-! ## The body's triple -/

set_option maxHeartbeats 1000000 in
/-- The body on whole staging memrefs, the operands' at contents `xW` and the results' at anything, leaves the
    operands' as they were and each result's at `out0_W` of the operands'. -/
theorem sound_kernel (c : Dev nD) (E : Set ℕ) (i : grid0.Coords) (arg1 : Memref sig .tc .vmem S3x16384 .f32) (harg1 : arg1.IsWhole) (arg2 : Memref sig .tc .vmem S64x11 .bf16) (harg2 : arg2.IsWhole) (arg3 : Memref sig .tc .vmem S256x66 .bf16) (harg3 : arg3.IsWhole) (arg4 : Memref sig .tc .vmem S2x256 .bf16) (harg4 : arg4.IsWhole) (arg5 : Memref sig .tc .vmem S2x1 .f32) (harg5 : arg5.IsWhole) (arg6 : Memref sig .tc .vmem S1x16384 .f32) (harg6 : arg6.IsWhole) (arg7 : Memref sig .tc .vmem S1x16384 .f32) (harg7 : arg7.IsWhole)
    (x0 : Vec F S3x16384 .f32) (x1 : Vec F S64x11 .bf16) (x2 : Vec F S256x66 .bf16) (x3 : Vec F S2x256 .bf16) (x4 : Vec F S2x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__policy_kernel i arg1 harg1 arg2 harg2 arg3 harg3 arg4 harg4 arg5 harg5 arg6 harg6 arg7 harg7) K := by
  simp only [cc0__policy_kernel_eq_skeleton]; unfold cc0__policy_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  iexists _; isplitr
  swap; · iexact H6
  ipureintro
  try dsimp only
  exact View.read_writes_eq_canon _ _ _ (cover0_6 _)

/-! ## The region's proof data -/

/-- On core `c`: the arrays as the region finds them; after the body at point `t` each operand's buffer at its
    block and each result's at `out0_W` of the operand blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution ends, each array of the region at what the
    points wrote back and every other buffer as the two reshapes leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Hand

end
-- ==== Proof.Spec.lean ====
import Idealize.ShloMosaic.PureOps.Ideal
import Idealize.ShloMosaic.Lib.ValueIdx

/-! The policy network as plain functions on extended reals, in the two arrangements the two programs compute it in.

    One input row `x : Fin 3 → EReal` goes through  h₁ = relu(x·W₁ + b₁) (64 wide),  h₂ = relu(h₁·W₂ + b₂) (256 wide)
    and two heads  y = h₂·[w_μ | w_σ] + [b_μ | b_σ];  the results are  2·tanh(y₀)  and  softplus(y₁) + 0.001.

    * the row arrangement (`h1R`, `h2R`, `yR`): the three products of layer 1 added one after the other and the bias after
      them, then each layer as "sum over the inner index, plus bias";
    * the column arrangement (`h1K`, `h2K`, `yK`): every layer ONE sum, over an inner index lengthened by the bias — the
      operand matrices `W1S` (64 × 11) and `W2S` (256 × 66) carry, beside the transposed weights, the remainder
      `w − w` of each weight and bias after its leading part and the bias itself, and the activations are stacked over
      rows of ones (`xsK`, `hsK`).  -/

noncomputable section

open scoped BigOperators

namespace Cert.Net

open Idealize.ShloMosaic Idealize.ShloMosaic.ValueIdx

/-- A matrix of extended reals with `n0` rows and `n1` columns. -/
abbrev Arr (n0 n1 : Nat) : Type := (⟨2, ![n0, n1]⟩ : Shape).Idx → EReal

/-! ## The two head activations -/

/-- Twice the hyperbolic tangent, entry by entry. -/
def actMu {S : Shape} (y : FVec Ideal S .f32) : FVec Ideal S .f32 :=
  mulf (broadcast S (Scalar.ofBits (F := Ideal) .f32 0x40000000#32)) (tanh y)

/-- `logaddexp(y, 0) + 0.001`, entry by entry, in the stable form  max(y, 0) + log1p(exp(−|y − 0|))  (with `y + 0`
    where `y − 0` is not a number, which no extended real is). -/
def actSd {S : Shape} (y : FVec Ideal S .f32) : FVec Ideal S .f32 :=
  addf
    (select (cmpf .one (subf y (broadcast S (Scalar.ofBits (F := Ideal) .f32 0x00000000#32))) (subf y (broadcast S (Scalar.ofBits (F := Ideal) .f32 0x00000000#32))))
      (addf y (broadcast S (Scalar.ofBits (F := Ideal) .f32 0x00000000#32)))
      (addf (maximumf y (broadcast S (Scalar.ofBits (F := Ideal) .f32 0x00000000#32)))
        (log1p (exp (subf (broadcast S (Scalar.ofBits (F := Ideal) .f32 0x00000000#32))
          (absf (subf y (broadcast S (Scalar.ofBits (F := Ideal) .f32 0x00000000#32)))))))))
    (broadcast S (Scalar.ofBits (F := Ideal) .f32 0x3A83126F#32))

/-- The first activation on one number. -/
def muS (x : EReal) : EReal := actMu (S := ⟨0, ![]⟩) (fun _ => x) ix0
/-- The second activation on one number. -/
def sdS (x : EReal) : EReal := actSd (S := ⟨0, ![]⟩) (fun _ => x) ix0

theorem actMu_apply {S : Shape} (y : FVec Ideal S .f32) (i : S.Idx) : actMu y i = muS (y i) := rfl
theorem actSd_apply {S : Shape} (y : FVec Ideal S .f32) (i : S.Idx) : actSd y i = sdS (y i) := rfl

/-! ## Two one-column matrices side by side -/

/-- `[a | b]`: column 0 is `a`, column 1 is `b`. -/
def catCols {n : Nat} (a b : Arr n 1) : Arr n 2 :=
  fun j => if (j 1).val = 0 then a (ix2 (⟨(j 0).val, idx2_lt0 j⟩ : Fin n) (0 : Fin 1))
    else b (ix2 (⟨(j 0).val, idx2_lt0 j⟩ : Fin n) (0 : Fin 1))

/-! ## The row arrangement -/

/-- Layer 1 of one input row: the three products added in order, then the bias, then the rectifier. -/
def h1R (w1 : Arr 3 64) (b1 : Arr 1 64) (x : Fin 3 → EReal) (j : Fin 64) : EReal :=
  max (x 0 * w1 (ix2 0 j) + x 1 * w1 (ix2 1 j) + x 2 * w1 (ix2 2 j) + b1 (ix2 0 j)) 0

/-- Layer 2. -/
def h2R (w2 : Arr 64 256) (b2 : Arr 1 256) (w1 : Arr 3 64) (b1 : Arr 1 64) (x : Fin 3 → EReal) (k : Fin 256) : EReal :=
  max ((∑ j : Fin 64, h1R w1 b1 x j * w2 (ix2 j k)) + b2 (ix2 0 k)) 0

/-- The two heads' pre-activations. -/
def yR (wh : Arr 256 2) (bh : Arr 1 2) (w2 : Arr 64 256) (b2 : Arr 1 256) (w1 : Arr 3 64) (b1 : Arr 1 64)
    (x : Fin 3 → EReal) (r : Fin 2) : EReal :=
  (∑ k : Fin 256, h2R w2 b2 w1 b1 x k * wh (ix2 k r)) + bh (ix2 0 r)

/-! ## The column arrangement -/

/-- The stacked input column, 11 long: the input, the input again, its remainder `x − x`, and two ones. -/
def xsK (x : Fin 3 → EReal) (i : Fin 11) : EReal :=
  if h : i.val < 3 then x ⟨i.val, h⟩
  else if h : i.val < 6 then x ⟨i.val - 3, by omega⟩
  else if h : i.val < 9 then x ⟨i.val - 6, by omega⟩ - x ⟨i.val - 6, by omega⟩
  else 1

/-- Layer 1: one sum over the 11 stacked entries, then the rectifier. -/
def h1K (w1s : Arr 64 11) (x : Fin 3 → EReal) (j : Fin 64) : EReal :=
  max (∑ i : Fin 11, w1s (ix2 j i) * xsK x i) 0

/-- The stacked layer-1 output, 66 long: the 64 activations and two ones. -/
def hsK (w1s : Arr 64 11) (x : Fin 3 → EReal) (j : Fin 66) : EReal :=
  if h : j.val < 64 then h1K w1s x ⟨j.val, h⟩ else 1

/-- Layer 2: one sum over the 66 stacked entries, then the rectifier. -/
def h2K (w2s : Arr 256 66) (w1s : Arr 64 11) (x : Fin 3 → EReal) (k : Fin 256) : EReal :=
  max (∑ j : Fin 66, w2s (ix2 k j) * hsK w1s x j) 0

/-- The two heads' pre-activations. -/
def yK (whs : Arr 2 256) (bht : Arr 2 1) (w2s : Arr 256 66) (w1s : Arr 64 11) (x : Fin 3 → EReal) (r : Fin 2) : EReal :=
  (∑ k : Fin 256, whs (ix2 r k) * h2K w2s w1s x k) + bht (ix2 r 0)

/-! ## The operand matrices of the column arrangement, from the network's parameters -/

/-- Layer 1's operand (64 × 11), row `j`:  W₁ᵀ | W₁ᵀ − W₁ᵀ | W₁ᵀ | b₁ | b₁ − b₁. -/
def W1S (w1 : Arr 3 64) (b1 : Arr 1 64) : Arr 64 11 := fun p =>
  if h : (p 1).val < 3 then w1 (ix2 (⟨(p 1).val, h⟩ : Fin 3) (⟨(p 0).val, idx2_lt0 p⟩ : Fin 64))
  else if h : (p 1).val < 6 then
    w1 (ix2 (⟨(p 1).val - 3, by omega⟩ : Fin 3) (⟨(p 0).val, idx2_lt0 p⟩ : Fin 64))
      - w1 (ix2 (⟨(p 1).val - 3, by omega⟩ : Fin 3) (⟨(p 0).val, idx2_lt0 p⟩ : Fin 64))
  else if h : (p 1).val < 9 then w1 (ix2 (⟨(p 1).val - 6, by omega⟩ : Fin 3) (⟨(p 0).val, idx2_lt0 p⟩ : Fin 64))
  else if (p 1).val = 9 then b1 (ix2 (0 : Fin 1) (⟨(p 0).val, idx2_lt0 p⟩ : Fin 64))
  else b1 (ix2 (0 : Fin 1) (⟨(p 0).val, idx2_lt0 p⟩ : Fin 64)) - b1 (ix2 (0 : Fin 1) (⟨(p 0).val, idx2_lt0 p⟩ : Fin 64))

/-- Layer 2's operand (256 × 66), row `k`:  W₂ᵀ | b₂ | b₂ − b₂. -/
def W2S (w2 : Arr 64 256) (b2 : Arr 1 256) : Arr 256 66 := fun p =>
  if h : (p 1).val < 64 then w2 (ix2 (⟨(p 1).val, h⟩ : Fin 64) (⟨(p 0).val, idx2_lt0 p⟩ : Fin 256))
  else if (p 1).val = 64 then b2 (ix2 (0 : Fin 1) (⟨(p 0).val, idx2_lt0 p⟩ : Fin 256))
  else b2 (ix2 (0 : Fin 1) (⟨(p 0).val, idx2_lt0 p⟩ : Fin 256)) - b2 (ix2 (0 : Fin 1) (⟨(p 0).val, idx2_lt0 p⟩ : Fin 256))

/-- The heads' weights, transposed (2 × 256). -/
def whT (wh : Arr 256 2) : Arr 2 256 := fun p => wh (ix2 (⟨(p 1).val, idx2_lt1 p⟩ : Fin 256) (⟨(p 0).val, idx2_lt0 p⟩ : Fin 2))
/-- The heads' biases, transposed (2 × 1). -/
def bhT (bh : Arr 1 2) : Arr 2 1 := fun p => bh (ix2 (0 : Fin 1) (⟨(p 0).val, idx2_lt0 p⟩ : Fin 2))

theorem whT_apply (wh : Arr 256 2) (r : Fin 2) (k : Fin 256) : whT wh (ix2 r k) = wh (ix2 k r) := rfl
theorem bhT_apply (bh : Arr 1 2) (r : Fin 2) : bhT bh (ix2 r (0 : Fin 1)) = bh (ix2 (0 : Fin 1) r) := rfl

/-! ## The network's two results, as whole arrays -/

/-- Row `b` of the batch. -/
def rowOf (x : Arr 2097152 3) (b : Fin 2097152) : Fin 3 → EReal := fun a => x (ix2 b a)

/-- The means: `2·tanh` of head 0, one per batch row. -/
def Gmu (x : Arr 2097152 3) (w1 : Arr 3 64) (b1 : Arr 1 64) (w2 : Arr 64 256) (b2 : Arr 1 256)
    (wmu : Arr 256 1) (bmu : Arr 1 1) (wsd : Arr 256 1) (bsd : Arr 1 1) : Arr 2097152 1 :=
  fun i => muS (yR (catCols wmu wsd) (catCols bmu bsd) w2 b2 w1 b1 (rowOf x ⟨(i 0).val, idx2_lt0 i⟩) 0)

/-- The deviations: `softplus + 0.001` of head 1, one per batch row. -/
def Gsd (x : Arr 2097152 3) (w1 : Arr 3 64) (b1 : Arr 1 64) (w2 : Arr 64 256) (b2 : Arr 1 256)
    (wmu : Arr 256 1) (bmu : Arr 1 1) (wsd : Arr 256 1) (bsd : Arr 1 1) : Arr 2097152 1 :=
  fun i => sdS (yR (catCols wmu wsd) (catCols bmu bsd) w2 b2 w1 b1 (rowOf x ⟨(i 0).val, idx2_lt0 i⟩) 1)

/-- The same two arrays in the column arrangement. -/
def GmuK (x : Arr 2097152 3) (w1 : Arr 3 64) (b1 : Arr 1 64) (w2 : Arr 64 256) (b2 : Arr 1 256)
    (wmu : Arr 256 1) (bmu : Arr 1 1) (wsd : Arr 256 1) (bsd : Arr 1 1) : Arr 2097152 1 :=
  fun i => muS (yK (whT (catCols wmu wsd)) (bhT (catCols bmu bsd)) (W2S w2 b2) (W1S w1 b1) (rowOf x ⟨(i 0).val, idx2_lt0 i⟩) 0)
def GsdK (x : Arr 2097152 3) (w1 : Arr 3 64) (b1 : Arr 1 64) (w2 : Arr 64 256) (b2 : Arr 1 256)
    (wmu : Arr 256 1) (bmu : Arr 1 1) (wsd : Arr 256 1) (bsd : Arr 1 1) : Arr 2097152 1 :=
  fun i => sdS (yK (whT (catCols wmu wsd)) (bhT (catCols bmu bsd)) (W2S w2 b2) (W1S w1 b1) (rowOf x ⟨(i 0).val, idx2_lt0 i⟩) 1)

/-- An extended real that is a real number. -/
def IsReal (a : EReal) : Prop := a ≠ ⊤ ∧ a ≠ ⊥

end Cert.Net

end
-- ==== Proof.KerBody.lean ====
import proofs.«155359_g2000502678189943_pallasbulk_312_17_alg».proof.Proof.Gen.KernelIdeal.Skeleton
import proofs.«155359_g2000502678189943_pallasbulk_312_17_alg».proof.Proof.Spec
import Idealize.ShloMosaic.Lib.ValueIdx
import Idealize.ShloMosaic.Lib.Pipeline.Value
import Idealize.ShloMosaic.PureOps.Ideal.Laws
import Idealize.ShloMosaic.Lib.IdealHost

/-! The body of the transposed kernel, read at one entry of its tile.

    On a tile of 16384 batch columns the body stacks the input tile (input, input, remainder, ones) into 11 rows,
    multiplies by the 64 × 11 operand, rectifies, stacks the 64 rows over two rows of ones, multiplies by the
    256 × 66 operand, rectifies, multiplies by the 2 × 256 head weights and adds the head biases down the rows.
    Column `q` of the result depends on column `q` of the input tile alone: it is the column arrangement's
    pre-activation `yK` of that column.

    The order of the argument: each of the three products at row `p`, column `q` is the sum over the contracted
    extent of left operand `(p, k)` times right operand `(k, q)`; a stack of blocks along the rows reads, at row `i`,
    the block that row falls in; the bias column repeated along the columns reads its row. With these, column `q`
    of every stage is the corresponding stage of the column arrangement at column `q` of the input, one stage after
    the other: the stacked input `xsK`, layer 1 `h1K`, its stack `hsK`, layer 2 `h2K`, the heads `yK`. The two
    stored values are the two head activations of rows 0 and 1 of that result. -/

noncomputable section

open scoped BigOperators

namespace Cert.KernelIdeal.Body

open Idealize.ShloMosaic Idealize.ShloMosaic.ValueIdx Cert.KernelIdeal Cert.KernelIdeal.Gen Cert.Net

variable [Cert.KernelIdeal.Facts]

/-! ## The three products, read at one entry

    Each product contracts the columns of its left operand with the rows of its right operand: at row `p`, column `q`
    its operands are read at `(p, k)` and `(k, q)`, `k` running over the contracted extent. -/

theorem lhs_l1_0 (i : S64x16384.Idx) (c : dot_S64x11_S11x16384_S64x16384_1_0_0_1_n_n.contr.Idx) :
    (dot_S64x11_S11x16384_S64x16384_1_0_0_1_n_n.lhsIdx i c 0).val = (i 0).val := by
  unfold DotDims.lhsIdx
  rw [dif_neg (show ¬(0 : Fin S64x11.rank) ∈ dot_S64x11_S11x16384_S64x16384_1_0_0_1_n_n.lhsBatch by decide),
    dif_pos (show (0 : Fin S64x11.rank) ∈ dot_S64x11_S11x16384_S64x16384_1_0_0_1_n_n.lhsNonContracting by decide)]
  rfl
theorem lhs_l1_1 (i : S64x16384.Idx) (c : dot_S64x11_S11x16384_S64x16384_1_0_0_1_n_n.contr.Idx) :
    (dot_S64x11_S11x16384_S64x16384_1_0_0_1_n_n.lhsIdx i c 1).val = (c ⟨0, by decide⟩).val :=
  dot_S64x11_S11x16384_S64x16384_1_0_0_1_n_n.lhsIdx_val_of_single rfl i c
theorem rhs_l1_0 (i : S64x16384.Idx) (c : dot_S64x11_S11x16384_S64x16384_1_0_0_1_n_n.contr.Idx) :
    (dot_S64x11_S11x16384_S64x16384_1_0_0_1_n_n.rhsIdx i c 0).val = (c ⟨0, by decide⟩).val :=
  dot_S64x11_S11x16384_S64x16384_1_0_0_1_n_n.rhsIdx_val_of_single rfl i c
theorem rhs_l1_1 (i : S64x16384.Idx) (c : dot_S64x11_S11x16384_S64x16384_1_0_0_1_n_n.contr.Idx) :
    (dot_S64x11_S11x16384_S64x16384_1_0_0_1_n_n.rhsIdx i c 1).val = (i 1).val := by
  unfold DotDims.rhsIdx
  rw [dif_neg (show ¬(1 : Fin S11x16384.rank) ∈ dot_S64x11_S11x16384_S64x16384_1_0_0_1_n_n.rhsBatch by decide),
    dif_pos (show (1 : Fin S11x16384.rank) ∈ dot_S64x11_S11x16384_S64x16384_1_0_0_1_n_n.rhsNonContracting by decide)]
  rfl

theorem matmul_l1_apply (l : FVec Ideal S64x11 .bf16) (r : FVec Ideal S11x16384 .bf16) (p : Fin 64) (q : Fin 16384) :
    matmul dot_S64x11_S11x16384_S64x16384_1_0_0_1_n_n none l r (constant (F := Ideal) S64x16384 .f32 0x00000000#32) (ix2 p q)
      = ∑ k : Fin 11, l (ix2 p k) * r (ix2 k q) := by
  simp only [matmul]
  rw [Ideal.matmul_constant_zero_apply, ← Equiv.sum_comp (contrEquiv1 dot_S64x11_S11x16384_S64x16384_1_0_0_1_n_n 11 rfl rfl).symm]
  refine Finset.sum_congr rfl fun k _ => ?_
  have hk := contrEquiv1_symm_val dot_S64x11_S11x16384_S64x16384_1_0_0_1_n_n 11 rfl rfl k
  have el : dot_S64x11_S11x16384_S64x16384_1_0_0_1_n_n.lhsIdx (ix2 p q) ((contrEquiv1 dot_S64x11_S11x16384_S64x16384_1_0_0_1_n_n 11 rfl rfl).symm k) = ix2 p k :=
    funext fun a => Fin.ext (by
      match a with
      | ⟨0, _⟩ => exact lhs_l1_0 _ _
      | ⟨1, _⟩ => exact (lhs_l1_1 _ _).trans hk)
  have er : dot_S64x11_S11x16384_S64x16384_1_0_0_1_n_n.rhsIdx (ix2 p q) ((contrEquiv1 dot_S64x11_S11x16384_S64x16384_1_0_0_1_n_n 11 rfl rfl).symm k) = ix2 k q :=
    funext fun a => Fin.ext (by
      match a with
      | ⟨0, _⟩ => exact (rhs_l1_0 _ _).trans hk
      | ⟨1, _⟩ => exact rhs_l1_1 _ _)
  rw [el, er]

theorem lhs_l2_0 (i : S256x16384.Idx) (c : dot_S256x66_S66x16384_S256x16384_1_0_0_1_n_n.contr.Idx) :
    (dot_S256x66_S66x16384_S256x16384_1_0_0_1_n_n.lhsIdx i c 0).val = (i 0).val := by
  unfold DotDims.lhsIdx
  rw [dif_neg (show ¬(0 : Fin S256x66.rank) ∈ dot_S256x66_S66x16384_S256x16384_1_0_0_1_n_n.lhsBatch by decide),
    dif_pos (show (0 : Fin S256x66.rank) ∈ dot_S256x66_S66x16384_S256x16384_1_0_0_1_n_n.lhsNonContracting by decide)]
  rfl
theorem lhs_l2_1 (i : S256x16384.Idx) (c : dot_S256x66_S66x16384_S256x16384_1_0_0_1_n_n.contr.Idx) :
    (dot_S256x66_S66x16384_S256x16384_1_0_0_1_n_n.lhsIdx i c 1).val = (c ⟨0, by decide⟩).val :=
  dot_S256x66_S66x16384_S256x16384_1_0_0_1_n_n.lhsIdx_val_of_single rfl i c
theorem rhs_l2_0 (i : S256x16384.Idx) (c : dot_S256x66_S66x16384_S256x16384_1_0_0_1_n_n.contr.Idx) :
    (dot_S256x66_S66x16384_S256x16384_1_0_0_1_n_n.rhsIdx i c 0).val = (c ⟨0, by decide⟩).val :=
  dot_S256x66_S66x16384_S256x16384_1_0_0_1_n_n.rhsIdx_val_of_single rfl i c
theorem rhs_l2_1 (i : S256x16384.Idx) (c : dot_S256x66_S66x16384_S256x16384_1_0_0_1_n_n.contr.Idx) :
    (dot_S256x66_S66x16384_S256x16384_1_0_0_1_n_n.rhsIdx i c 1).val = (i 1).val := by
  unfold DotDims.rhsIdx
  rw [dif_neg (show ¬(1 : Fin S66x16384.rank) ∈ dot_S256x66_S66x16384_S256x16384_1_0_0_1_n_n.rhsBatch by decide),
    dif_pos (show (1 : Fin S66x16384.rank) ∈ dot_S256x66_S66x16384_S256x16384_1_0_0_1_n_n.rhsNonContracting by decide)]
  rfl

theorem matmul_l2_apply (l : FVec Ideal S256x66 .bf16) (r : FVec Ideal S66x16384 .bf16) (p : Fin 256) (q : Fin 16384) :
    matmul dot_S256x66_S66x16384_S256x16384_1_0_0_1_n_n none l r (constant (F := Ideal) S256x16384 .f32 0x00000000#32) (ix2 p q)
      = ∑ k : Fin 66, l (ix2 p k) * r (ix2 k q) := by
  simp only [matmul]
  rw [Ideal.matmul_constant_zero_apply, ← Equiv.sum_comp (contrEquiv1 dot_S256x66_S66x16384_S256x16384_1_0_0_1_n_n 66 rfl rfl).symm]
  refine Finset.sum_congr rfl fun k _ => ?_
  have hk := contrEquiv1_symm_val dot_S256x66_S66x16384_S256x16384_1_0_0_1_n_n 66 rfl rfl k
  have el : dot_S256x66_S66x16384_S256x16384_1_0_0_1_n_n.lhsIdx (ix2 p q) ((contrEquiv1 dot_S256x66_S66x16384_S256x16384_1_0_0_1_n_n 66 rfl rfl).symm k) = ix2 p k :=
    funext fun a => Fin.ext (by
      match a with
      | ⟨0, _⟩ => exact lhs_l2_0 _ _
      | ⟨1, _⟩ => exact (lhs_l2_1 _ _).trans hk)
  have er : dot_S256x66_S66x16384_S256x16384_1_0_0_1_n_n.rhsIdx (ix2 p q) ((contrEquiv1 dot_S256x66_S66x16384_S256x16384_1_0_0_1_n_n 66 rfl rfl).symm k) = ix2 k q :=
    funext fun a => Fin.ext (by
      match a with
      | ⟨0, _⟩ => exact (rhs_l2_0 _ _).trans hk
      | ⟨1, _⟩ => exact rhs_l2_1 _ _)
  rw [el, er]

theorem lhs_hd_0 (i : S2x16384.Idx) (c : dot_S2x256_S256x16384_S2x16384_1_0_0_1_n_n.contr.Idx) :
    (dot_S2x256_S256x16384_S2x16384_1_0_0_1_n_n.lhsIdx i c 0).val = (i 0).val := by
  unfold DotDims.lhsIdx
  rw [dif_neg (show ¬(0 : Fin S2x256.rank) ∈ dot_S2x256_S256x16384_S2x16384_1_0_0_1_n_n.lhsBatch by decide),
    dif_pos (show (0 : Fin S2x256.rank) ∈ dot_S2x256_S256x16384_S2x16384_1_0_0_1_n_n.lhsNonContracting by decide)]
  rfl
theorem lhs_hd_1 (i : S2x16384.Idx) (c : dot_S2x256_S256x16384_S2x16384_1_0_0_1_n_n.contr.Idx) :
    (dot_S2x256_S256x16384_S2x16384_1_0_0_1_n_n.lhsIdx i c 1).val = (c ⟨0, by decide⟩).val :=
  dot_S2x256_S256x16384_S2x16384_1_0_0_1_n_n.lhsIdx_val_of_single rfl i c
theorem rhs_hd_0 (i : S2x16384.Idx) (c : dot_S2x256_S256x16384_S2x16384_1_0_0_1_n_n.contr.Idx) :
    (dot_S2x256_S256x16384_S2x16384_1_0_0_1_n_n.rhsIdx i c 0).val = (c ⟨0, by decide⟩).val :=
  dot_S2x256_S256x16384_S2x16384_1_0_0_1_n_n.rhsIdx_val_of_single rfl i c
theorem rhs_hd_1 (i : S2x16384.Idx) (c : dot_S2x256_S256x16384_S2x16384_1_0_0_1_n_n.contr.Idx) :
    (dot_S2x256_S256x16384_S2x16384_1_0_0_1_n_n.rhsIdx i c 1).val = (i 1).val := by
  unfold DotDims.rhsIdx
  rw [dif_neg (show ¬(1 : Fin S256x16384.rank) ∈ dot_S2x256_S256x16384_S2x16384_1_0_0_1_n_n.rhsBatch by decide),
    dif_pos (show (1 : Fin S256x16384.rank) ∈ dot_S2x256_S256x16384_S2x16384_1_0_0_1_n_n.rhsNonContracting by decide)]
  rfl

theorem matmul_hd_apply (l : FVec Ideal S2x256 .bf16) (r : FVec Ideal S256x16384 .bf16) (p : Fin 2) (q : Fin 16384) :
    matmul dot_S2x256_S256x16384_S2x16384_1_0_0_1_n_n none l r (constant (F := Ideal) S2x16384 .f32 0x00000000#32) (ix2 p q)
      = ∑ k : Fin 256, l (ix2 p k) * r (ix2 k q) := by
  simp only [matmul]
  rw [Ideal.matmul_constant_zero_apply, ← Equiv.sum_comp (contrEquiv1 dot_S2x256_S256x16384_S2x16384_1_0_0_1_n_n 256 rfl rfl).symm]
  refine Finset.sum_congr rfl fun k _ => ?_
  have hk := contrEquiv1_symm_val dot_S2x256_S256x16384_S2x16384_1_0_0_1_n_n 256 rfl rfl k
  have el : dot_S2x256_S256x16384_S2x16384_1_0_0_1_n_n.lhsIdx (ix2 p q) ((contrEquiv1 dot_S2x256_S256x16384_S2x16384_1_0_0_1_n_n 256 rfl rfl).symm k) = ix2 p k :=
    funext fun a => Fin.ext (by
      match a with
      | ⟨0, _⟩ => exact lhs_hd_0 _ _
      | ⟨1, _⟩ => exact (lhs_hd_1 _ _).trans hk)
  have er : dot_S2x256_S256x16384_S2x16384_1_0_0_1_n_n.rhsIdx (ix2 p q) ((contrEquiv1 dot_S2x256_S256x16384_S2x16384_1_0_0_1_n_n 256 rfl rfl).symm k) = ix2 k q :=
    funext fun a => Fin.ext (by
      match a with
      | ⟨0, _⟩ => exact (rhs_hd_0 _ _).trans hk
      | ⟨1, _⟩ => exact rhs_hd_1 _ _)
  rw [el, er]

/-! ## The two stackings along the rows, read at one entry -/

/-- Four blocks of 3, 3, 3 and 2 rows stacked: row `i` of the stack is row `i`, `i − 3`, `i − 6` or `i − 9` of the
    block it falls in. -/
theorem stack4_apply {α : Type} (a b c : S3x16384.Idx → α) (d : S2x16384.Idx → α)
    (h : Shape.Concatenates [S3x16384, S3x16384, S3x16384, S2x16384] S11x16384 0) (i : Fin 11) (q : Fin 16384) :
    concatenate S11x16384 0 [⟨S3x16384, a⟩, ⟨S3x16384, b⟩, ⟨S3x16384, c⟩, ⟨S2x16384, d⟩] h (ix2 i q)
      = if h0 : i.val < 3 then a (ix2 (⟨i.val, h0⟩ : Fin 3) q)
        else if h1 : i.val < 6 then b (ix2 (⟨i.val - 3, by omega⟩ : Fin 3) q)
        else if h2 : i.val < 9 then c (ix2 (⟨i.val - 6, by omega⟩ : Fin 3) q)
        else d (ix2 (⟨i.val - 9, by omega⟩ : Fin 2) q) := by
  have off : ∀ {n : Nat} (u : Fin n) (b : Fin 2), b.cast (rfl : (2 : Nat) = S11x16384.rank) ≠ (0 : Fin S11x16384.rank) →
      ((ix2 u q) b).val = ((ix2 i q) (b.cast (rfl : (2 : Nat) = S11x16384.rank))).val := fun u b hb => by
    match b with
    | ⟨0, _⟩ => exact absurd rfl hb
    | ⟨1, _⟩ => rfl
  split
  · next h0 =>
    exact concatenate_apply_piece (t := S11x16384) 0 [⟨S3x16384, a⟩, ⟨S3x16384, b⟩, ⟨S3x16384, c⟩, ⟨S2x16384, d⟩] h (ix2 i q)
      0 (Nat.succ_pos 3) S3x16384 a rfl rfl 0 rfl
      (ix2 (⟨i.val, h0⟩ : Fin 3) q) (off _) (by show 0 + i.val = i.val; omega)
  · next h0 =>
    split
    · next h1 =>
      exact concatenate_apply_piece (t := S11x16384) 0 [⟨S3x16384, a⟩, ⟨S3x16384, b⟩, ⟨S3x16384, c⟩, ⟨S2x16384, d⟩] h (ix2 i q)
        1 (by show 1 < 4; omega) S3x16384 b rfl rfl 3 rfl
        (ix2 (⟨i.val - 3, by omega⟩ : Fin 3) q) (off _) (by show 3 + (i.val - 3) = i.val; omega)
    · next h1 =>
      split
      · next h2 =>
        exact concatenate_apply_piece (t := S11x16384) 0 [⟨S3x16384, a⟩, ⟨S3x16384, b⟩, ⟨S3x16384, c⟩, ⟨S2x16384, d⟩] h (ix2 i q)
          2 (by show 2 < 4; omega) S3x16384 c rfl rfl 6 rfl
          (ix2 (⟨i.val - 6, by omega⟩ : Fin 3) q) (off _) (by show 6 + (i.val - 6) = i.val; omega)
      · next h2 =>
        exact concatenate_apply_piece (t := S11x16384) 0 [⟨S3x16384, a⟩, ⟨S3x16384, b⟩, ⟨S3x16384, c⟩, ⟨S2x16384, d⟩] h (ix2 i q)
          3 (by show 3 < 4; omega) S2x16384 d rfl rfl 9 rfl
          (ix2 (⟨i.val - 9, by omega⟩ : Fin 2) q) (off _) (by show 9 + (i.val - 9) = i.val; omega)

/-- A block of 64 rows stacked over a block of 2 rows. -/
theorem stack2_apply {α : Type} (a : S64x16384.Idx → α) (d : S2x16384.Idx → α)
    (h : Shape.Concatenates [S64x16384, S2x16384] S66x16384 0) (j : Fin 66) (q : Fin 16384) :
    concatenate S66x16384 0 [⟨S64x16384, a⟩, ⟨S2x16384, d⟩] h (ix2 j q)
      = if h0 : j.val < 64 then a (ix2 (⟨j.val, h0⟩ : Fin 64) q)
        else d (ix2 (⟨j.val - 64, by omega⟩ : Fin 2) q) := by
  have off : ∀ {n : Nat} (u : Fin n) (b : Fin 2), b.cast (rfl : (2 : Nat) = S66x16384.rank) ≠ (0 : Fin S66x16384.rank) →
      ((ix2 u q) b).val = ((ix2 j q) (b.cast (rfl : (2 : Nat) = S66x16384.rank))).val := fun u b hb => by
    match b with
    | ⟨0, _⟩ => exact absurd rfl hb
    | ⟨1, _⟩ => rfl
  split
  · next h0 =>
    exact concatenate_apply_piece (t := S66x16384) 0 [⟨S64x16384, a⟩, ⟨S2x16384, d⟩] h (ix2 j q)
      0 (Nat.succ_pos 1) S64x16384 a rfl rfl 0 rfl
      (ix2 (⟨j.val, h0⟩ : Fin 64) q) (off _) (by show 0 + j.val = j.val; omega)
  · next h0 =>
    exact concatenate_apply_piece (t := S66x16384) 0 [⟨S64x16384, a⟩, ⟨S2x16384, d⟩] h (ix2 j q)
      1 (by show 1 < 2; omega) S2x16384 d rfl rfl 64 rfl
      (ix2 (⟨j.val - 64, by omega⟩ : Fin 2) q) (off _) (by show 64 + (j.val - 64) = j.val; omega)

/-- The 2 × 1 column repeated along the 16384 columns. -/
theorem col_apply {α : Type} (v : S2x1.Idx → α) (h : S2x1.Broadcasts S2x16384) (r : Fin 2) (q : Fin 16384) :
    broadcastTo S2x16384 v h (ix2 r q) = v (ix2 r (0 : Fin 1)) := by
  refine broadcastTo_apply v h (ix2 r q) (ix2 r (0 : Fin 1)) fun a => ?_
  match a with
  | ⟨0, _⟩ => rfl
  | ⟨1, _⟩ => rfl

/-! ## The stages of the body at one column -/

/-- The stacked input tile: column `q` of the stack is the stacked input column of column `q` of the tile. -/
theorem xs_apply (v : FVec Ideal S3x16384 .f32) (hb : FTy.bits .bf16 < FTy.bits .f32)
    (h : Shape.Concatenates [S3x16384, S3x16384, S3x16384, S2x16384] S11x16384 0) (i : Fin 11) (q : Fin 16384) :
    concatenate S11x16384 0
      [⟨S3x16384, (truncf .bf16 v hb : FVec Ideal S3x16384 .bf16)⟩, ⟨S3x16384, (truncf .bf16 v hb : FVec Ideal S3x16384 .bf16)⟩,
       ⟨S3x16384, (truncf .bf16 (subf v v) hb : FVec Ideal S3x16384 .bf16)⟩,
       ⟨S2x16384, (broadcast S2x16384 (Scalar.ofBits (F := Ideal) .bf16 0x3F80#16) : FVec Ideal S2x16384 .bf16)⟩] h (ix2 i q)
      = xsK (fun a => v (ix2 a q)) i := by
  rw [stack4_apply]
  unfold xsK
  split
  · rfl
  · split
    · rfl
    · split
      · rfl
      · exact Ideal.ofBits_one_bf16

/-- Layer 1 on the tile: the first product, rectified, at row `j` and column `q`. -/
theorem h1_apply (w : FVec Ideal S64x11 .bf16) (xs : FVec Ideal S11x16384 .bf16) (x : Fin 3 → EReal) (q : Fin 16384)
    (hx : ∀ i : Fin 11, xs (ix2 i q) = xsK x i) (hb : FTy.bits .bf16 < FTy.bits .f32) (j : Fin 64) :
    maximumf (truncf .bf16 (matmul dot_S64x11_S11x16384_S64x16384_1_0_0_1_n_n none w xs (constant (F := Ideal) S64x16384 .f32 0x00000000#32)) hb : FVec Ideal S64x16384 .bf16)
      (broadcast S64x16384 (Scalar.ofBits (F := Ideal) .bf16 0x0000#16)) (ix2 j q) = h1K w x j := by
  show max (matmul dot_S64x11_S11x16384_S64x16384_1_0_0_1_n_n none w xs (constant (F := Ideal) S64x16384 .f32 0x00000000#32) (ix2 j q)) (Ideal.ofBits .bf16 0x0000#16)
    = max (∑ i : Fin 11, w (ix2 j i) * xsK x i) 0
  rw [matmul_l1_apply, Ideal.ofBits_zero_bf16]
  exact congrArg (max · 0) (Finset.sum_congr rfl fun i _ => by rw [hx i])

/-- The stacked layer-1 output: the 64 rows of layer 1 over two rows of ones. -/
theorem hs_apply (h1 : FVec Ideal S64x16384 .bf16) (w : Arr 64 11) (x : Fin 3 → EReal) (q : Fin 16384)
    (hh : ∀ j : Fin 64, h1 (ix2 j q) = h1K w x j)
    (h : Shape.Concatenates [S64x16384, S2x16384] S66x16384 0) (j : Fin 66) :
    concatenate S66x16384 0
      [⟨S64x16384, h1⟩, ⟨S2x16384, (broadcast S2x16384 (Scalar.ofBits (F := Ideal) .bf16 0x3F80#16) : FVec Ideal S2x16384 .bf16)⟩] h (ix2 j q)
      = hsK w x j := by
  rw [stack2_apply]
  unfold hsK
  split
  · exact hh _
  · exact Ideal.ofBits_one_bf16

/-- Layer 2 on the tile: the second product, rectified, at row `k` and column `q`. -/
theorem h2_apply (w2 : FVec Ideal S256x66 .bf16) (hs : FVec Ideal S66x16384 .bf16) (w1 : Arr 64 11) (x : Fin 3 → EReal) (q : Fin 16384)
    (hh : ∀ j : Fin 66, hs (ix2 j q) = hsK w1 x j) (hb : FTy.bits .bf16 < FTy.bits .f32) (k : Fin 256) :
    maximumf (truncf .bf16 (matmul dot_S256x66_S66x16384_S256x16384_1_0_0_1_n_n none w2 hs (constant (F := Ideal) S256x16384 .f32 0x00000000#32)) hb : FVec Ideal S256x16384 .bf16)
      (broadcast S256x16384 (Scalar.ofBits (F := Ideal) .bf16 0x0000#16)) (ix2 k q) = h2K w2 w1 x k := by
  show max (matmul dot_S256x66_S66x16384_S256x16384_1_0_0_1_n_n none w2 hs (constant (F := Ideal) S256x16384 .f32 0x00000000#32) (ix2 k q)) (Ideal.ofBits .bf16 0x0000#16)
    = max (∑ j : Fin 66, w2 (ix2 k j) * hsK w1 x j) 0
  rw [matmul_l2_apply, Ideal.ofBits_zero_bf16]
  exact congrArg (max · 0) (Finset.sum_congr rfl fun j _ => by rw [hh j])

/-- The heads: the third product plus the head biases repeated along the columns, at row `r` and column `q`. -/
theorem y_apply (wh : FVec Ideal S2x256 .bf16) (h2 : FVec Ideal S256x16384 .bf16) (bh : FVec Ideal S2x1 .f32)
    (w2 : Arr 256 66) (w1 : Arr 64 11) (x : Fin 3 → EReal) (q : Fin 16384)
    (hh : ∀ k : Fin 256, h2 (ix2 k q) = h2K w2 w1 x k) (hbr : S2x1.Broadcasts S2x16384) (r : Fin 2) :
    addf (matmul dot_S2x256_S256x16384_S2x16384_1_0_0_1_n_n none wh h2 (constant (F := Ideal) S2x16384 .f32 0x00000000#32)) (broadcastTo S2x16384 bh hbr) (ix2 r q)
      = yK wh bh w2 w1 x r := by
  show matmul dot_S2x256_S256x16384_S2x16384_1_0_0_1_n_n none wh h2 (constant (F := Ideal) S2x16384 .f32 0x00000000#32) (ix2 r q) + broadcastTo S2x16384 bh hbr (ix2 r q)
    = (∑ k : Fin 256, wh (ix2 r k) * h2K w2 w1 x k) + bh (ix2 r (0 : Fin 1))
  rw [matmul_hd_apply, col_apply]
  exact congrArg (· + bh (ix2 r (0 : Fin 1))) (Finset.sum_congr rfl fun k _ => by rw [hh k])

/-! ## The three payloads -/

/-- The head pre-activations (the value both stores are computed from) at row `r`, column `q` of the tile. -/
theorem pay2_apply (x0 : Vec Ideal S3x16384 .f32) (x1 : Vec Ideal S64x11 .bf16) (x2 : Vec Ideal S256x66 .bf16)
    (x3 : Vec Ideal S2x256 .bf16) (x4 : Vec Ideal S2x1 .f32) (r : Fin 2) (q : Fin 16384) :
    k0_pay2 (F := Ideal) x0 x1 x2 x3 x4 (ix2 r q) = yK x3 x4 x2 x1 (fun a => x0 (ix2 a q)) r := by
  unfold k0_pay2
  rw [shapeCast_self x0, shapeCast_self x1, shapeCast_self x2, shapeCast_self x3, shapeCast_self x4]
  refine y_apply _ _ _ x2 x1 _ q (fun k => ?_) _ r
  refine h2_apply _ _ x1 _ q (fun j => ?_) _ k
  refine hs_apply _ x1 _ q (fun j' => ?_) _ j
  refine h1_apply _ _ _ q (fun i => ?_) _ j'
  exact xs_apply _ _ _ i q

/-- What is stored into the first result's tile, at column `q`. -/
theorem pay3_apply (x0 : Vec Ideal S3x16384 .f32) (x1 : Vec Ideal S64x11 .bf16) (x2 : Vec Ideal S256x66 .bf16)
    (x3 : Vec Ideal S2x256 .bf16) (x4 : Vec Ideal S2x1 .f32) (q : Fin 16384) :
    k0_pay3 (F := Ideal) x0 x1 x2 x3 x4 (ix2 0 q) = muS (yK x3 x4 x2 x1 (fun a => x0 (ix2 a q)) 0) := by
  have e : k0_pay3 (F := Ideal) x0 x1 x2 x3 x4
      = actMu (extractStridedSlice S1x16384 ![0, 0] (k0_pay2 (F := Ideal) x0 x1 x2 x3 x4) slices_S2x16384_o0_0_S1x16384) := rfl
  rw [e, actMu_apply]
  refine congrArg muS ?_
  refine (extractStridedSlice_apply _ _ _ (ix2 (0 : Fin 1) q) (ix2 (0 : Fin 2) q) fun a => ?_).trans
    (pay2_apply x0 x1 x2 x3 x4 0 q)
  match a with
  | ⟨0, _⟩ => rfl
  | ⟨1, _⟩ => exact (Nat.zero_add q.val).symm

/-- What is stored into the second result's tile, at column `q`. -/
theorem pay1_apply (x0 : Vec Ideal S3x16384 .f32) (x1 : Vec Ideal S64x11 .bf16) (x2 : Vec Ideal S256x66 .bf16)
    (x3 : Vec Ideal S2x256 .bf16) (x4 : Vec Ideal S2x1 .f32) (q : Fin 16384) :
    k0_pay1 (F := Ideal) (k0_pay4 x0 x1 x2 x3 x4) (Scalar.ofBits .f32 0x00000000#32) (k0_pay5 x0 x1 x2 x3 x4) (k0_pay6 x0 x1 x2 x3 x4) (ix2 0 q)
      = sdS (yK x3 x4 x2 x1 (fun a => x0 (ix2 a q)) 1) := by
  have e : k0_pay1 (F := Ideal) (k0_pay4 x0 x1 x2 x3 x4) (Scalar.ofBits .f32 0x00000000#32) (k0_pay5 x0 x1 x2 x3 x4)
        (k0_pay6 x0 x1 x2 x3 x4)
      = actSd (extractStridedSlice S1x16384 ![1, 0] (k0_pay2 (F := Ideal) x0 x1 x2 x3 x4) slices_S2x16384_o1_0_S1x16384) := rfl
  rw [e, actSd_apply]
  refine congrArg sdS ?_
  refine (extractStridedSlice_apply _ _ _ (ix2 (0 : Fin 1) q) (ix2 (1 : Fin 2) q) fun a => ?_).trans
    (pay2_apply x0 x1 x2 x3 x4 1 q)
  match a with
  | ⟨0, _⟩ => rfl
  | ⟨1, _⟩ => exact (Nat.zero_add q.val).symm

end Cert.KernelIdeal.Body

end
-- ==== Proof.KerHost.lean ====
import proofs.«155359_g2000502678189943_pallasbulk_312_17_alg».proof.Proof.KFrame
import proofs.«155359_g2000502678189943_pallasbulk_312_17_alg».proof.Proof.Spec
import Idealize.ShloMosaic.Lib.ValueIdx
import Idealize.ShloMosaic.Lib.ValueLayout
import Idealize.ShloMosaic.Lib.Pipeline.Value
import Idealize.ShloMosaic.Lib.StableHlo.Run

/-! What the host lines before the region leave in the five operand arrays, at the ideal instance.

    A change of format is the identity on extended reals, so the "leading part" of a weight is the weight and its
    "remainder" is `w − w`.  The five operands are then: the input batch transposed; the 64 × 11 matrix `W1S`; the
    256 × 66 matrix `W2S`; the head weights `[w_μ | w_σ]` transposed; the head biases `[b_μ | b_σ]` transposed.

    Each operand is first read as the composed term of the lines that make it (transposes, a row recast as a column,
    leading parts and remainders, pieces laid side by side along the columns), a function `opN` of the argument arrays;
    then `opN` is read entry by entry: a column index falls in exactly one piece, and there the piece is the transposed
    weight, its remainder, the bias column or its remainder — which is the case split that defines `W1S` and `W2S`. -/

noncomputable section

namespace Cert.KernelIdeal.Host

open Idealize.ShloMosaic Idealize.ShloMosaic.ValueIdx Cert.KernelIdeal Cert.KernelIdeal.Gen Cert.KernelIdeal.Hand Cert.Net

/-! ## An operation of three or five operands read at its result buffer

The library reads an `n`-operand operation's result as its function applied to the family `fun k => (contents of operand k)`;
for a literal list of operands the family is restated here operand by operand, so that each operand's own contents can be
read in turn. -/

section Nary

open Idealize.ShloMosaic.StableHlo

variable {τ : Topo} {sig : RefSig} {Val : EltTy → Type} {x a b c e y : Ref sig .tc}

/-- Three operands. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Five operands. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same two, stated so that the result buffer is matched up to unfolding. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Nary

variable [Cert.KernelIdeal.Facts]
variable (m : (ℓ : Loc nD τ sig) → Buf (Elt Ideal) ℓ)

/-! ## The five operands as functions of the argument arrays -/

/-- The leading part of an array: narrowed to the short format (and, where it is subtracted, widened back). -/
abbrev lead {S : Shape} (a : FVec Ideal S .f32) : FVec Ideal S .bf16 := truncf .bf16 a bitsLt_bf16_f32

/-- The remainder of an array after its leading part, itself narrowed. -/
abbrev rest {S : Shape} (a : FVec Ideal S .f32) : FVec Ideal S .bf16 :=
  truncf .bf16 (subf a (extf .f32 (lead a) bitsLt_bf16_f32)) bitsLt_bf16_f32

/-- Operand 1 from the layer-1 weights and bias. -/
def op11 (a1 : FVec Ideal S3x64 .f32) (a2 : FVec Ideal S1x64 .f32) : FVec Ideal S64x11 .bf16 :=
  concatenate S64x11 1
    [⟨S64x3, lead (transpose S64x3 [1, 0] a1 transposes_S3x64_S64x3_1_0)⟩,
     ⟨S64x3, rest (transpose S64x3 [1, 0] a1 transposes_S3x64_S64x3_1_0)⟩,
     ⟨S64x3, lead (transpose S64x3 [1, 0] a1 transposes_S3x64_S64x3_1_0)⟩,
     ⟨S64x1, lead (shapeCast S64x1 a2 shapeCasts_S1x64_S64x1)⟩,
     ⟨S64x1, rest (shapeCast S64x1 a2 shapeCasts_S1x64_S64x1)⟩]
    concatenates_S64x3_S64x3_S64x3_S64x1_S64x1_S64x11_d1

/-- Operand 2 from the layer-2 weights and bias. -/
def op19 (a3 : FVec Ideal S64x256 .f32) (a4 : FVec Ideal S1x256 .f32) : FVec Ideal S256x66 .bf16 :=
  concatenate S256x66 1
    [⟨S256x64, lead (transpose S256x64 [1, 0] a3 transposes_S64x256_S256x64_1_0)⟩,
     ⟨S256x1, lead (shapeCast S256x1 a4 shapeCasts_S1x256_S256x1)⟩,
     ⟨S256x1, rest (shapeCast S256x1 a4 shapeCasts_S1x256_S256x1)⟩]
    concatenates_S256x64_S256x1_S256x1_S256x66_d1

/-- Operand 3 from the two heads' weights. -/
def op22 (a5 a7 : FVec Ideal S256x1 .f32) : FVec Ideal S2x256 .bf16 :=
  lead (transpose S2x256 [1, 0] (concatenate S256x2 1 [⟨S256x1, a5⟩, ⟨S256x1, a7⟩] concatenates_S256x1_S256x1_S256x2_d1)
    transposes_S256x2_S2x256_1_0)

/-- Operand 4 from the two heads' biases. -/
def op24 (a6 a8 : FVec Ideal S1x1 .f32) : FVec Ideal S2x1 .f32 :=
  transpose S2x1 [1, 0] (concatenate S1x2 1 [⟨S1x1, a6⟩, ⟨S1x1, a8⟩] concatenates_S1x1_S1x1_S1x2_d1) transposes_S1x2_S2x1_1_0

open Idealize.ShloMosaic.StableHlo in
/-- Reads a buffer after the host lines as the lines' composed term: one pass over the list, each line's result buffer to its
    function's value, every other buffer to what the lines before left there. -/
local macro "host_results" : tactic =>
  `(tactic| (simp (disch := decide) only [after_cons, after_nil,
      unary_result', binary_result', reshape_result', nary3_result', nary5_result',
      unary_result_ne', binary_result_ne', reshape_result_ne', nary_result_ne']))

/-! ## Each operand array as the host lines' composed term -/

theorem run_v0 (c : Dev nD) :
    (V m c main_v0 : S3x2097152.Idx → EReal)
      = transpose S3x2097152 [1, 0] (m ((c.tc : Thread nD τ).loc main_arg0) : S2097152x3.Idx → EReal) transposes_S2097152x3_S3x2097152_1_0 := by
  show StableHlo.after hostOps0 (fun b => m (c, b)) (Proc.devRef .tc main_v0) = _
  host_results
  first | done | rfl

theorem run_v11 (c : Dev nD) :
    (V m c main_v11 : S64x11.Idx → EReal) = op11 (m ((c.tc : Thread nD τ).loc main_arg1)) (m ((c.tc : Thread nD τ).loc main_arg2)) := by
  show StableHlo.after hostOps0 (fun b => m (c, b)) (Proc.devRef .tc main_v11) = _
  host_results
  first | done | rfl

theorem run_v19 (c : Dev nD) :
    (V m c main_v19 : S256x66.Idx → EReal) = op19 (m ((c.tc : Thread nD τ).loc main_arg3)) (m ((c.tc : Thread nD τ).loc main_arg4)) := by
  show StableHlo.after hostOps0 (fun b => m (c, b)) (Proc.devRef .tc main_v19) = _
  host_results
  first | done | rfl

theorem run_v22 (c : Dev nD) :
    (V m c main_v22 : S2x256.Idx → EReal) = op22 (m ((c.tc : Thread nD τ).loc main_arg5)) (m ((c.tc : Thread nD τ).loc main_arg7)) := by
  show StableHlo.after hostOps0 (fun b => m (c, b)) (Proc.devRef .tc main_v22) = _
  host_results
  first | done | rfl

theorem run_v24 (c : Dev nD) :
    (V m c main_v24 : S2x1.Idx → EReal) = op24 (m ((c.tc : Thread nD τ).loc main_arg6)) (m ((c.tc : Thread nD τ).loc main_arg8)) := by
  show StableHlo.after hostOps0 (fun b => m (c, b)) (Proc.devRef .tc main_v24) = _
  host_results
  first | done | rfl

/-! ## The operands read at an index -/

theorem lead_apply {S : Shape} (a : FVec Ideal S .f32) (i : S.Idx) : lead a i = a i := rfl
theorem rest_apply {S : Shape} (a : FVec Ideal S .f32) (i : S.Idx) : rest a i = a i - a i := rfl

/-- A row `[1, n]` recast as a column `[n, 1]` reads, at `(j, 0)`, the row at `(0, j)`. -/
theorem col_apply {α : Type} {n : ℕ} (x : (⟨2, ![1, n]⟩ : Shape).Idx → α)
    (h : (⟨2, ![1, n]⟩ : Shape).ShapeCasts ⟨2, ![n, 1]⟩) (j : Fin n) (z : Fin 1) :
    shapeCast ⟨2, ![n, 1]⟩ x h (ix2 j z) = x (ix2 (0 : Fin 1) j) :=
  shapeCast_apply x h _ _ (by
    have hz : z.val = 0 := by omega
    rw [Shape.rowMajor_val_two, Shape.rowMajor_val_two]
    show 0 * n + j.val = j.val * 1 + z.val
    rw [hz, Nat.zero_mul, Nat.zero_add, Nat.mul_one, Nat.add_zero])

/-- Two columns side by side. -/
theorem cat_cols {n : ℕ} (a b : Arr n 1)
    (h : Shape.Concatenates [(⟨2, ![n, 1]⟩ : Shape), ⟨2, ![n, 1]⟩] ⟨2, ![n, 2]⟩ 1) :
    concatenate (⟨2, ![n, 2]⟩ : Shape) 1 [⟨⟨2, ![n, 1]⟩, a⟩, ⟨⟨2, ![n, 1]⟩, b⟩] h = catCols a b := by
  funext p
  obtain ⟨k, r, rfl⟩ : ∃ (k : Fin n) (r : Fin 2), p = ix2 k r := ⟨p 0, p 1, eq_ix2 p⟩
  show _ = if r.val = 0 then a (ix2 k (0 : Fin 1)) else b (ix2 k (0 : Fin 1))
  by_cases hr : r.val = 0
  · rw [if_pos hr]
    exact concatenate_pair_apply_left 1 a b h (ix2 k r) rfl (ix2 k (0 : Fin 1))
      (fun d => match d with | ⟨0, _⟩ => rfl | ⟨1, _⟩ => hr.symm)
  · rw [if_neg hr]
    exact concatenate_pair_apply_right 1 a b h (ix2 k r) rfl rfl (ix2 k (0 : Fin 1))
      (fun d hd => match d, hd with | ⟨0, _⟩, _ => rfl | ⟨1, _⟩, hd => absurd rfl hd)
      (by show 0 + 1 = r.val; omega)

theorem op24_eq (a6 a8 : FVec Ideal S1x1 .f32) : op24 a6 a8 = bhT (catCols a6 a8) := by
  funext p
  obtain ⟨r, z, rfl⟩ : ∃ (r : Fin 2) (z : Fin 1), p = ix2 r z := ⟨p 0, p 1, eq_ix2 p⟩
  have hz : z = 0 := Subsingleton.elim _ _
  subst hz
  unfold op24
  refine (transpose_ix2_apply _ transposes_S1x2_S2x1_1_0 r (0 : Fin 1)).trans ?_
  rw [bhT_apply]
  exact congrFun (cat_cols a6 a8 concatenates_S1x1_S1x1_S1x2_d1) (ix2 (0 : Fin 1) r)

theorem op22_eq (a5 a7 : FVec Ideal S256x1 .f32) : op22 a5 a7 = whT (catCols a5 a7) := by
  funext p
  obtain ⟨r, k, rfl⟩ : ∃ (r : Fin 2) (k : Fin 256), p = ix2 r k := ⟨p 0, p 1, eq_ix2 p⟩
  unfold op22
  refine (lead_apply _ _).trans ((transpose_ix2_apply _ transposes_S256x2_S2x256_1_0 r k).trans ?_)
  rw [whT_apply]
  exact congrFun (cat_cols a5 a7 concatenates_S256x1_S256x1_S256x2_d1) (ix2 k r)

/-- Operand 1 is layer 1's stacked matrix. -/
theorem op11_eq (a1 : FVec Ideal S3x64 .f32) (a2 : FVec Ideal S1x64 .f32) : op11 a1 a2 = W1S a1 a2 := by
  funext p
  obtain ⟨j, i, rfl⟩ : ∃ (j : Fin 64) (i : Fin 11), p = ix2 j i := ⟨p 0, p 1, eq_ix2 p⟩
  unfold W1S op11
  split_ifs with h1 h2 h3 h4
  -- columns 0–2: W₁ᵀ;  3–5: its remainder;  6–8: W₁ᵀ again;  9: b₁;  10: its remainder
  · have h1' : i.val < 3 := h1
    refine (concatenate_apply_piece _ _ _ (ix2 j i) 0 (by show (_ : ℕ) < 5; omega) S64x3 _ rfl rfl 0 rfl (ix2 j (⟨i.val, h1'⟩ : Fin 3))
      (fun d hd => match d, hd with | ⟨0, _⟩, _ => rfl | ⟨1, _⟩, hd => absurd rfl hd) (by show 0 + i.val = i.val; omega)).trans ?_
    exact (lead_apply _ _).trans (transpose_ix2_apply a1 transposes_S3x64_S64x3_1_0 j ⟨i.val, h1'⟩)
  · have h1' : ¬ i.val < 3 := h1
    have h2' : i.val < 6 := h2
    refine (concatenate_apply_piece _ _ _ (ix2 j i) 1 (by show (_ : ℕ) < 5; omega) S64x3 _ rfl rfl 3 rfl (ix2 j (⟨i.val - 3, by omega⟩ : Fin 3))
      (fun d hd => match d, hd with | ⟨0, _⟩, _ => rfl | ⟨1, _⟩, hd => absurd rfl hd) (by show 3 + (i.val - 3) = i.val; omega)).trans ?_
    refine (rest_apply _ _).trans ?_
    rw [transpose_ix2_apply a1 transposes_S3x64_S64x3_1_0 j ⟨i.val - 3, by omega⟩]
  · have h2' : ¬ i.val < 6 := h2
    have h3' : i.val < 9 := h3
    refine (concatenate_apply_piece _ _ _ (ix2 j i) 2 (by show (_ : ℕ) < 5; omega) S64x3 _ rfl rfl 6 rfl (ix2 j (⟨i.val - 6, by omega⟩ : Fin 3))
      (fun d hd => match d, hd with | ⟨0, _⟩, _ => rfl | ⟨1, _⟩, hd => absurd rfl hd) (by show 6 + (i.val - 6) = i.val; omega)).trans ?_
    exact (lead_apply _ _).trans (transpose_ix2_apply a1 transposes_S3x64_S64x3_1_0 j ⟨i.val - 6, by omega⟩)
  · have h4' : i.val = 9 := h4
    refine (concatenate_apply_piece _ _ _ (ix2 j i) 3 (by show (_ : ℕ) < 5; omega) S64x1 _ rfl rfl 9 rfl (ix2 j (0 : Fin 1))
      (fun d hd => match d, hd with | ⟨0, _⟩, _ => rfl | ⟨1, _⟩, hd => absurd rfl hd) (by show 9 + 0 = i.val; omega)).trans ?_
    exact (lead_apply _ _).trans (col_apply a2 shapeCasts_S1x64_S64x1 j 0)
  · have h3' : ¬ i.val < 9 := h3
    have h4' : ¬ i.val = 9 := h4
    refine (concatenate_apply_piece _ _ _ (ix2 j i) 4 (by show (_ : ℕ) < 5; omega) S64x1 _ rfl rfl 10 rfl (ix2 j (0 : Fin 1))
      (fun d hd => match d, hd with | ⟨0, _⟩, _ => rfl | ⟨1, _⟩, hd => absurd rfl hd) (by show 10 + 0 = i.val; omega)).trans ?_
    refine (rest_apply _ _).trans ?_
    rw [col_apply a2 shapeCasts_S1x64_S64x1 j 0]

/-- Operand 2 is layer 2's stacked matrix. -/
theorem op19_eq (a3 : FVec Ideal S64x256 .f32) (a4 : FVec Ideal S1x256 .f32) : op19 a3 a4 = W2S a3 a4 := by
  funext p
  obtain ⟨k, i, rfl⟩ : ∃ (k : Fin 256) (i : Fin 66), p = ix2 k i := ⟨p 0, p 1, eq_ix2 p⟩
  unfold W2S op19
  split_ifs with h1 h2
  -- columns 0–63: W₂ᵀ;  64: b₂;  65: its remainder
  · have h1' : i.val < 64 := h1
    refine (concatenate_apply_piece _ _ _ (ix2 k i) 0 (by show (_ : ℕ) < 3; omega) S256x64 _ rfl rfl 0 rfl (ix2 k (⟨i.val, h1'⟩ : Fin 64))
      (fun d hd => match d, hd with | ⟨0, _⟩, _ => rfl | ⟨1, _⟩, hd => absurd rfl hd) (by show 0 + i.val = i.val; omega)).trans ?_
    exact (lead_apply _ _).trans (transpose_ix2_apply a3 transposes_S64x256_S256x64_1_0 k ⟨i.val, h1'⟩)
  · have h2' : i.val = 64 := h2
    refine (concatenate_apply_piece _ _ _ (ix2 k i) 1 (by show (_ : ℕ) < 3; omega) S256x1 _ rfl rfl 64 rfl (ix2 k (0 : Fin 1))
      (fun d hd => match d, hd with | ⟨0, _⟩, _ => rfl | ⟨1, _⟩, hd => absurd rfl hd) (by show 64 + 0 = i.val; omega)).trans ?_
    exact (lead_apply _ _).trans (col_apply a4 shapeCasts_S1x256_S256x1 k 0)
  · have h1' : ¬ i.val < 64 := h1
    have h2' : ¬ i.val = 64 := h2
    refine (concatenate_apply_piece _ _ _ (ix2 k i) 2 (by show (_ : ℕ) < 3; omega) S256x1 _ rfl rfl 65 rfl (ix2 k (0 : Fin 1))
      (fun d hd => match d, hd with | ⟨0, _⟩, _ => rfl | ⟨1, _⟩, hd => absurd rfl hd) (by show 65 + 0 = i.val; omega)).trans ?_
    refine (rest_apply _ _).trans ?_
    rw [col_apply a4 shapeCasts_S1x256_S256x1 k 0]

/-! ## The five operands -/

/-- Operand 0: the batch, transposed. -/
theorem V_v0 (c : Dev nD) (a : Fin 3) (b : Fin 2097152) :
    (V m c main_v0 : S3x2097152.Idx → EReal) (ix2 a b) = (m ((c.tc : Thread nD τ).loc main_arg0) : S2097152x3.Idx → EReal) (ix2 b a) :=
  (congrFun (run_v0 m c) (ix2 a b)).trans (transpose_ix2_apply _ transposes_S2097152x3_S3x2097152_1_0 a b)

/-- Operand 1: layer 1's stacked matrix. -/
theorem V_v11 (c : Dev nD) :
    (V m c main_v11 : S64x11.Idx → EReal) = W1S (m ((c.tc : Thread nD τ).loc main_arg1)) (m ((c.tc : Thread nD τ).loc main_arg2)) :=
  (run_v11 m c).trans (op11_eq _ _)

/-- Operand 2: layer 2's stacked matrix. -/
theorem V_v19 (c : Dev nD) :
    (V m c main_v19 : S256x66.Idx → EReal) = W2S (m ((c.tc : Thread nD τ).loc main_arg3)) (m ((c.tc : Thread nD τ).loc main_arg4)) :=
  (run_v19 m c).trans (op19_eq _ _)

/-- Operand 3: the head weights, side by side, transposed. -/
theorem V_v22 (c : Dev nD) :
    (V m c main_v22 : S2x256.Idx → EReal) = whT (catCols (m ((c.tc : Thread nD τ).loc main_arg5)) (m ((c.tc : Thread nD τ).loc main_arg7))) :=
  (run_v22 m c).trans (op22_eq _ _)

/-- Operand 4: the head biases, side by side, transposed. -/
theorem V_v24 (c : Dev nD) :
    (V m c main_v24 : S2x1.Idx → EReal) = bhT (catCols (m ((c.tc : Thread nD τ).loc main_arg6)) (m ((c.tc : Thread nD τ).loc main_arg8))) :=
  (run_v24 m c).trans (op24_eq _ _)

end Cert.KernelIdeal.Host

end
-- ==== Proof.KerValue.lean ====
import proofs.«155359_g2000502678189943_pallasbulk_312_17_alg».proof.Proof.KFrame
import proofs.«155359_g2000502678189943_pallasbulk_312_17_alg».proof.Proof.KerBody
import proofs.«155359_g2000502678189943_pallasbulk_312_17_alg».proof.Proof.KerHost
import proofs.«155359_g2000502678189943_pallasbulk_312_17_alg».proof.Proof.Spec
import Idealize.ShloMosaic.Lib.ValueIdx
import Idealize.ShloMosaic.Lib.ValueLayout
import Idealize.ShloMosaic.Lib.Pipeline.Value
import Idealize.ShloMosaic.Lib.StableHlo.Run

/-! The transposed program's two results as whole arrays.

    The region writes two 1 × 2097152 arrays tile by tile, 16384 columns a tile over 128 points; column `b` lies in
    tile `b / 16384`, and what that point stores at the column depends on column `b` of the transposed batch alone.
    So each array after the region is, entry by entry, an activation of a head of the column arrangement; the two
    reshapes after the region turn the rows into columns. -/

set_option maxRecDepth 16384

noncomputable section

namespace Cert.KernelIdeal.Value

open Idealize.ShloMosaic Idealize.ShloMosaic.ValueIdx Idealize.SL.Sem Cert.KernelIdeal Cert.KernelIdeal.Gen Cert.KernelIdeal.Hand Cert.Net
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the batch window and the two result windows sit at tile `t` of their second axis,
    the four parameter windows at the one block there is. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## The operand arrays and their tiles, at their literal types -/

abbrev arr0 (c : Dev nD) : S3x2097152.Idx → EReal := V m c main_v0
abbrev arr1 (c : Dev nD) : S64x11.Idx → EReal := V m c main_v11
abbrev arr2 (c : Dev nD) : S256x66.Idx → EReal := V m c main_v19
abbrev arr3 (c : Dev nD) : S2x256.Idx → EReal := V m c main_v22
abbrev arr4 (c : Dev nD) : S2x1.Idx → EReal := V m c main_v24

abbrev blk0 (c : Dev nD) (t : Fin cfg0.N) : Vec Ideal S3x16384 .f32 := iblk m c 0 t
abbrev blk1 (c : Dev nD) (t : Fin cfg0.N) : Vec Ideal S64x11 .bf16 := iblk m c 1 t
abbrev blk2 (c : Dev nD) (t : Fin cfg0.N) : Vec Ideal S256x66 .bf16 := iblk m c 2 t
abbrev blk3 (c : Dev nD) (t : Fin cfg0.N) : Vec Ideal S2x256 .bf16 := iblk m c 3 t
abbrev blk4 (c : Dev nD) (t : Fin cfg0.N) : Vec Ideal S2x1 .f32 := iblk m c 4 t

/-- Column `q` of tile `t` of the transposed batch is column `16384 t + q` of the array. -/
theorem blk0_apply (c : Dev nD) (t : Fin cfg0.N) (a : Fin 3) (q : Fin 16384) (b : Fin 2097152) (hb : b.val = t.val * 16384 + q.val) :
    blk0 m c t (ix2 a q) = arr0 m c (ix2 a b) := by
  obtain ⟨e00, e01, -⟩ := idx_facts t
  show V m c main_v0 (((cfg0.win 0).blk t).view.emb (ix2 a q)) = V m c main_v0 (ix2 a b)
  congr 1
  funext d; apply Fin.ext
  match d with
  | ⟨0, _⟩ => show win0_0.index t (0 : Fin 2) * 3 + 1 * a.val = a.val; omega
  | ⟨1, _⟩ => show win0_0.index t (1 : Fin 2) * 16384 + 1 * q.val = b.val; omega

/-- A parameter window's one block is its whole array. -/
theorem blk1_eq (c : Dev nD) (t : Fin cfg0.N) : blk1 m c t = arr1 m c := by
  obtain ⟨-, -, e0, e1, -⟩ := idx_facts t
  funext y
  show V m c main_v11 (((cfg0.win 1).blk t).view.emb y) = V m c main_v11 y
  congr 1
  funext d; apply Fin.ext
  match d with
  | ⟨0, _⟩ => show win0_1.index t (0 : Fin 2) * 64 + 1 * (y 0).val = (y 0).val; omega
  | ⟨1, _⟩ => show win0_1.index t (1 : Fin 2) * 11 + 1 * (y 1).val = (y 1).val; omega
theorem blk2_eq (c : Dev nD) (t : Fin cfg0.N) : blk2 m c t = arr2 m c := by
  obtain ⟨-, -, -, -, e0, e1, -⟩ := idx_facts t
  funext y
  show V m c main_v19 (((cfg0.win 2).blk t).view.emb y) = V m c main_v19 y
  congr 1
  funext d; apply Fin.ext
  match d with
  | ⟨0, _⟩ => show win0_2.index t (0 : Fin 2) * 256 + 1 * (y 0).val = (y 0).val; omega
  | ⟨1, _⟩ => show win0_2.index t (1 : Fin 2) * 66 + 1 * (y 1).val = (y 1).val; omega
theorem blk3_eq (c : Dev nD) (t : Fin cfg0.N) : blk3 m c t = arr3 m c := by
  obtain ⟨-, -, -, -, -, -, e0, e1, -⟩ := idx_facts t
  funext y
  show V m c main_v22 (((cfg0.win 3).blk t).view.emb y) = V m c main_v22 y
  congr 1
  funext d; apply Fin.ext
  match d with
  | ⟨0, _⟩ => show win0_3.index t (0 : Fin 2) * 2 + 1 * (y 0).val = (y 0).val; omega
  | ⟨1, _⟩ => show win0_3.index t (1 : Fin 2) * 256 + 1 * (y 1).val = (y 1).val; omega
theorem blk4_eq (c : Dev nD) (t : Fin cfg0.N) : blk4 m c t = arr4 m c := by
  obtain ⟨-, -, -, -, -, -, -, -, e0, e1, -⟩ := idx_facts t
  funext y
  show V m c main_v24 (((cfg0.win 4).blk t).view.emb y) = V m c main_v24 y
  congr 1
  funext d; apply Fin.ext
  match d with
  | ⟨0, _⟩ => show win0_4.index t (0 : Fin 2) * 2 + 1 * (y 0).val = (y 0).val; omega
  | ⟨1, _⟩ => show win0_4.index t (1 : Fin 2) * 1 + 1 * (y 1).val = (y 1).val; omega

/-! ## What each point writes back -/

/-- Head `r` of the column arrangement at batch column `b`, from the operand arrays as the region finds them. -/
def yAt (c : Dev nD) (b : Fin 2097152) (r : Fin 2) : EReal :=
  yK (arr3 m c) (arr4 m c) (arr2 m c) (arr1 m c) (fun a => arr0 m c (ix2 a b)) r

/-- The first result array after the region: the first activation of head 0, column by column. -/
def G5 (c : Dev nD) : S1x2097152.Idx → EReal := fun i => muS (yAt m c ⟨(i 1).val, idx2_lt1 i⟩ 0)
/-- The second: the second activation of head 1. -/
def G6 (c : Dev nD) : S1x2097152.Idx → EReal := fun i => sdS (yAt m c ⟨(i 1).val, idx2_lt1 i⟩ 1)

/-- A tile's column arrangement is the array's at the tile's column. -/
theorem yK_blk (c : Dev nD) (t : Fin cfg0.N) (q : Fin 16384) (b : Fin 2097152) (hb : b.val = t.val * 16384 + q.val) (r : Fin 2) :
    yK (blk3 m c t) (blk4 m c t) (blk2 m c t) (blk1 m c t) (fun a => blk0 m c t (ix2 a q)) r = yAt m c b r := by
  unfold yAt
  rw [blk1_eq, blk2_eq, blk3_eq, blk4_eq]
  congr 1
  funext a
  exact blk0_apply m c t a q b hb

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz]
  simp only [View.ld_unit_zero (S := S3x16384) hz, View.ld_unit_zero (S := S64x11) hz, View.ld_unit_zero (S := S256x66) hz,
    View.ld_unit_zero (S := S2x256) hz, View.ld_unit_zero (S := S2x1) hz]
  obtain ⟨-, -, -, -, -, -, -, -, -, -, e0, e1, -⟩ := idx_facts t
  funext j
  obtain ⟨z, q, rfl⟩ : ∃ (z : Fin 1) (q : Fin 16384), j = ix2 z q := ⟨j 0, j 1, eq_ix2 j⟩
  have hz0 : z = 0 := Subsingleton.elim _ _
  subst hz0
  have hq : q.val < 16384 := q.isLt
  have ht : t.val < 128 := t.isLt
  refine (Cert.KernelIdeal.Body.pay3_apply (blk0 m c t) (blk1 m c t) (blk2 m c t) (blk3 m c t) (blk4 m c t) q).trans ?_
  show _ = G5 m c (((cfg0.win 5).blk t).view.emb (ix2 (0 : Fin 1) q))
  unfold G5
  exact congrArg muS (yK_blk m c t q _ (by
    show win0_5.index t (1 : Fin 2) * 16384 + 1 * q.val = t.val * 16384 + q.val
    omega) 0)

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz]
  simp only [View.ld_unit_zero (S := S3x16384) hz, View.ld_unit_zero (S := S64x11) hz, View.ld_unit_zero (S := S256x66) hz,
    View.ld_unit_zero (S := S2x256) hz, View.ld_unit_zero (S := S2x1) hz]
  obtain ⟨-, -, -, -, -, -, -, -, -, -, -, -, e0, e1⟩ := idx_facts t
  funext j
  obtain ⟨z, q, rfl⟩ : ∃ (z : Fin 1) (q : Fin 16384), j = ix2 z q := ⟨j 0, j 1, eq_ix2 j⟩
  have hz0 : z = 0 := Subsingleton.elim _ _
  subst hz0
  have hq : q.val < 16384 := q.isLt
  have ht : t.val < 128 := t.isLt
  refine (Cert.KernelIdeal.Body.pay1_apply (blk0 m c t) (blk1 m c t) (blk2 m c t) (blk3 m c t) (blk4 m c t) q).trans ?_
  show _ = G6 m c (((cfg0.win 6).blk t).view.emb (ix2 (0 : Fin 1) q))
  unfold G6
  exact congrArg sdS (yK_blk m c t q _ (by
    show win0_6.index t (1 : Fin 2) * 16384 + 1 * q.val = t.val * 16384 + q.val
    omega) 1)

/-! ## The tiles cover the arrays -/

theorem mem_blk5 (t : Fin cfg0.N) (i : S1x2097152.Idx) :
    i ∈ ((cfg0.win 5).blk t).view.set ↔ ∀ a : Fin 2, win0_5.index t a * S1x16384.size a ≤ (i a).val ∧ (i a).val < win0_5.index t a * S1x16384.size a + S1x16384.size a := by
  show i ∈ ((View.whole main_v25_0).slice (win0_5.rect t)).set ↔ _
  rw [View.set_slice_whole, Rect.mem_set_unit]
  exact Iff.rfl
theorem mem_blk6 (t : Fin cfg0.N) (i : S1x2097152.Idx) :
    i ∈ ((cfg0.win 6).blk t).view.set ↔ ∀ a : Fin 2, win0_6.index t a * S1x16384.size a ≤ (i a).val ∧ (i a).val < win0_6.index t a * S1x16384.size a + S1x16384.size a := by
  show i ∈ ((View.whole main_v25_1).slice (win0_6.rect t)).set ↔ _
  rw [View.set_slice_whole, Rect.mem_set_unit]
  exact Iff.rfl

/-- Column `b` lies in tile `b / 16384`. -/
theorem cover5 (i : S1x2097152.Idx) : ∃ t : Fin cfg0.N, (cfg0.win 5).flush t = true ∧ i ∈ ((cfg0.win 5).blk t).view.set := by
  have hi0 : (i 0).val < 1 := (i 0).isLt
  have hi1 : (i 1).val < 2097152 := (i 1).isLt
  let t : Fin cfg0.N := ⟨(i 1).val / 16384, by rw [show cfg0.N = 128 from N_0]; omega⟩
  obtain ⟨-, -, -, -, -, -, -, -, -, -, e0, e1, -⟩ := idx_facts t
  have et : t.val = (i 1).val / 16384 := rfl
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 16384 ≤ (i 1).val ∧ (i 1).val < win0_5.index t (1 : Fin 2) * 16384 + 16384; omega
theorem cover6 (i : S1x2097152.Idx) : ∃ t : Fin cfg0.N, (cfg0.win 6).flush t = true ∧ i ∈ ((cfg0.win 6).blk t).view.set := by
  have hi0 : (i 0).val < 1 := (i 0).isLt
  have hi1 : (i 1).val < 2097152 := (i 1).isLt
  let t : Fin cfg0.N := ⟨(i 1).val / 16384, by rw [show cfg0.N = 128 from N_0]; omega⟩
  obtain ⟨-, -, -, -, -, -, -, -, -, -, -, -, e0, e1⟩ := idx_facts t
  have et : t.val = (i 1).val / 16384 := rfl
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 16384 ≤ (i 1).val ∧ (i 1).val < win0_6.index t (1 : Fin 2) * 16384 + 16384; omega

/-- The two result arrays after the region. -/
theorem final5 (c : Dev nD) : (dats m 0 c).arrAt 5 cfg0.N = G5 m c :=
  (dats m 0 c).arrAt_eq_of_cover 5 (G5 m c) (fun t _ => flushed5_eq m c t) cover5
theorem final6 (c : Dev nD) : (dats m 0 c).arrAt 6 cfg0.N = G6 m c :=
  (dats m 0 c).arrAt_eq_of_cover 6 (G6 m c) (fun t _ => flushed6_eq m c t) cover6

/-! ## The reshapes after the region -/

theorem tail26 (c : Dev nD) :
    (Pipeline.afterTail₀ cfgs (dats m) 0 (V0 m) [hostOps1] c main_v26 : S2097152x1.Idx → EReal)
      = shapeCast S2097152x1 (G5 m c) Facts₀.shapeCasts_S1x2097152_S2097152x1 := by
  unfold Pipeline.afterTail₀
  show StableHlo.after hostOps1 _ (Proc.devRef .tc main_v26) = _
  after_results
  have e : Pipeline.withArrays (cfgs 0).spec c (V0 m c) (fun w => (dats m 0 c).arrAt w (cfgs 0).N) (Proc.tc.devRef main_v25_0) = G5 m c :=
    (Pipeline.withArrays_arr spec0 launch0.win.arr_inj c _ _ 5).trans (final5 m c)
  rw [e]
  rfl

theorem tail27 (c : Dev nD) :
    (Pipeline.afterTail₀ cfgs (dats m) 0 (V0 m) [hostOps1] c main_v27 : S2097152x1.Idx → EReal)
      = shapeCast S2097152x1 (G6 m c) Facts₀.shapeCasts_S1x2097152_S2097152x1 := by
  unfold Pipeline.afterTail₀
  show StableHlo.after hostOps1 _ (Proc.devRef .tc main_v27) = _
  after_results
  have e : Pipeline.withArrays (cfgs 0).spec c (V0 m c) (fun w => (dats m 0 c).arrAt w (cfgs 0).N) (Proc.tc.devRef main_v25_1) = G6 m c :=
    (Pipeline.withArrays_arr spec0 launch0.win.arr_inj c _ _ 6).trans (final6 m c)
  rw [e]
  rfl

/-- A row of `n` entries reshaped into a column: entry `(b, 0)` of the column is entry `(0, b)` of the row. -/
theorem col_of_row (G : S1x2097152.Idx → EReal) (i : S2097152x1.Idx) :
    shapeCast S2097152x1 G Facts₀.shapeCasts_S1x2097152_S2097152x1 i = G (ix2 (0 : Fin 1) (⟨(i 0).val, idx2_lt0 i⟩ : Fin 2097152)) := by
  refine shapeCast_apply G _ i _ ?_
  rw [Shape.rowMajor_val_two, Shape.rowMajor_val_two]
  have h1 : (i 1).val < 1 := (i 1).isLt
  show (0 : ℕ) * 2097152 + (i 0).val = (i 0).val * 1 + (i 1).val
  omega

/-! ## The results as functions of the arguments -/

/-- The head pre-activations from the argument arrays: the operand arrays are the stacked matrices of the column
    arrangement, the batch transposed. -/
theorem yAt_eq (c : Dev nD) (b : Fin 2097152) (r : Fin 2) :
    yAt m c b r = yK (whT (catCols (m ((c.tc : Thread nD τ).loc main_arg5)) (m ((c.tc : Thread nD τ).loc main_arg7)))) (bhT (catCols (m ((c.tc : Thread nD τ).loc main_arg6)) (m ((c.tc : Thread nD τ).loc main_arg8))))
      (W2S (m ((c.tc : Thread nD τ).loc main_arg3)) (m ((c.tc : Thread nD τ).loc main_arg4))) (W1S (m ((c.tc : Thread nD τ).loc main_arg1)) (m ((c.tc : Thread nD τ).loc main_arg2))) (rowOf (m ((c.tc : Thread nD τ).loc main_arg0)) b) r := by
  unfold yAt
  have e1 : arr1 m c = W1S (m ((c.tc : Thread nD τ).loc main_arg1)) (m ((c.tc : Thread nD τ).loc main_arg2)) := Cert.KernelIdeal.Host.V_v11 m c
  have e2 : arr2 m c = W2S (m ((c.tc : Thread nD τ).loc main_arg3)) (m ((c.tc : Thread nD τ).loc main_arg4)) := Cert.KernelIdeal.Host.V_v19 m c
  have e3 : arr3 m c = whT (catCols (m ((c.tc : Thread nD τ).loc main_arg5)) (m ((c.tc : Thread nD τ).loc main_arg7))) := Cert.KernelIdeal.Host.V_v22 m c
  have e4 : arr4 m c = bhT (catCols (m ((c.tc : Thread nD τ).loc main_arg6)) (m ((c.tc : Thread nD τ).loc main_arg8))) := Cert.KernelIdeal.Host.V_v24 m c
  rw [e1, e2, e3, e4]
  congr 1
  funext a
  exact Cert.KernelIdeal.Host.V_v0 m c a b

/-- Every weakly fair execution ends with the two results at the network's two arrays (column arrangement) and the
    arguments unchanged. -/
theorem run_value : θ_run defs (onTc (τ := τ) (main (F := Ideal))) ⟨m, fun _ => 0, ρ⟩ (fun r => ∀ c : Dev nD,
      r.2.mem ((c.tc : Thread nD τ).loc main_v26) = GmuK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v27) = GsdK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v26 (Pipeline.mem_restRefs_of main_v26 (by decide) (by decide))).trans
        ((tail26 m c).trans (funext fun i => (col_of_row _ i).trans (congrArg muS (yAt_eq m c _ 0)))),
      ((h c).2 main_v27 (Pipeline.mem_restRefs_of main_v27 (by decide) (by decide))).trans
        ((tail27 m c).trans (funext fun i => (col_of_row _ i).trans (congrArg sdS (yAt_eq m c _ 1)))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Value

end
-- ==== Proof.RefBody.lean ====
import proofs.«155359_g2000502678189943_pallasbulk_312_17_alg».proof.Proof.Gen.ReferenceIdeal.Skeleton
import proofs.«155359_g2000502678189943_pallasbulk_312_17_alg».proof.Proof.Spec
import Idealize.ShloMosaic.Lib.ValueIdx
import Idealize.ShloMosaic.Lib.ValueLayout
import Idealize.ShloMosaic.Lib.Pipeline.Value
import Idealize.ShloMosaic.PureOps.Ideal.Laws

/-! The body of the row-major kernel, read at one entry of its tile.

    On a tile of 2048 batch rows the body forms layer 1 as three broadcast products added in order plus the bias,
    rectifies, multiplies by the 64 × 256 weights, adds the bias, rectifies, multiplies by the 256 × 2 head weights
    and adds the head biases; both activations are applied to the whole 2048 × 2 tile and column 0 keeps the first,
    column 1 the second.  Row `p` of the result depends on row `p` of the input tile alone: it is the row
    arrangement's pre-activation `yR` of that row.

    The module goes from the inside out.  A column of the tile copied over 64 columns reads its own row; a matrix
    product accumulated into zero reads, at entry (a, b), the sum over the inner index c of A(a, c) · B(c, b); with
    these, each of the three layers is read at an entry as a function of the layer below at the same row; the chain
    of the three is `yR`; and the final choice between the two activations by the column number is the `if`. -/

noncomputable section

open scoped BigOperators

namespace Cert.ReferenceIdeal.Body

open Idealize.ShloMosaic Idealize.ShloMosaic.ValueIdx Cert.ReferenceIdeal Cert.ReferenceIdeal.Gen Cert.Net

/-! ## A column copied over many columns -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product accumulated into zero, read at an entry -/

section Product
variable {m k n : ℕ} (w : DotDims.WF ⟨2, ![m, k]⟩ ⟨2, ![k, n]⟩ ⟨2, ![m, n]⟩ [1] [0] [0] [1] [] [])

/-- The dimension numbers of the product of an `m × k` by a `k × n` matrix: the left operand's columns are contracted
    with the right operand's rows. -/
abbrev prodDims : DotDims ⟨2, ![m, k]⟩ ⟨2, ![k, n]⟩ ⟨2, ![m, n]⟩ := ⟨[1], [0], [0], [1], [], [], w⟩

/-- The left operand's row is the result's row. -/
theorem lhs_axis0 (j : (⟨2, ![m, n]⟩ : Shape).Idx) (q : (prodDims w).contr.Idx) :
    ((prodDims w).lhsIdx j q 0).val = (j 0).val := by
  unfold DotDims.lhsIdx
  rw [dif_neg (show ¬ (0 : Fin 2) ∈ ([] : List (Fin 2)) from List.not_mem_nil),
    dif_pos (show (0 : Fin 2) ∈ [(0 : Fin 2)] from List.mem_singleton.mpr rfl)]
  rfl

/-- The left operand's column is the inner index. -/
theorem lhs_axis1 (j : (⟨2, ![m, n]⟩ : Shape).Idx) (q : (prodDims w).contr.Idx) :
    ((prodDims w).lhsIdx j q 1).val = (q ⟨0, Nat.one_pos⟩).val :=
  DotDims.lhsIdx_val_of_single (d := prodDims w) (cl := 1) rfl j q

/-- The right operand's row is the inner index. -/
theorem rhs_axis0 (j : (⟨2, ![m, n]⟩ : Shape).Idx) (q : (prodDims w).contr.Idx) :
    ((prodDims w).rhsIdx j q 0).val = (q ⟨0, Nat.one_pos⟩).val :=
  DotDims.rhsIdx_val_of_single (d := prodDims w) (cr := 0) rfl j q

/-- The right operand's column is the result's column. -/
theorem rhs_axis1 (j : (⟨2, ![m, n]⟩ : Shape).Idx) (q : (prodDims w).contr.Idx) :
    ((prodDims w).rhsIdx j q 1).val = (j 1).val := by
  unfold DotDims.rhsIdx
  rw [dif_neg (show ¬ (1 : Fin 2) ∈ ([] : List (Fin 2)) from List.not_mem_nil),
    dif_pos (show (1 : Fin 2) ∈ [(1 : Fin 2)] from List.mem_singleton.mpr rfl)]
  rfl

/-- Entry `(a, b)` of the product accumulated into the zero matrix is `∑ c, A(a, c) · B(c, b)`. -/
theorem matmul_zero_apply (A : FVec Ideal ⟨2, ![m, k]⟩ .f32) (B : FVec Ideal ⟨2, ![k, n]⟩ .f32) (a : Fin m) (b : Fin n) :
    matmul (prodDims w) none A B (constant (F := Ideal) ⟨2, ![m, n]⟩ .f32 0x00000000#32) (ix2 a b)
      = ∑ c : Fin k, A (ix2 a c) * B (ix2 c b) := by
  refine (Ideal.matmul_constant_zero_apply (prodDims w) none A B (ix2 a b)).trans ?_
  rw [← Equiv.sum_comp (contrEquiv1 (prodDims w) k rfl rfl).symm]
  refine Finset.sum_congr rfl fun c _ => ?_
  have hc := contrEquiv1_symm_val (prodDims w) k rfl rfl c
  have hl : (prodDims w).lhsIdx (ix2 a b) ((contrEquiv1 (prodDims w) k rfl rfl).symm c) = ix2 a c :=
    funext fun ax => Fin.ext (match ax with
      | ⟨0, _⟩ => lhs_axis0 w _ _
      | ⟨1, _⟩ => (lhs_axis1 w _ _).trans hc)
  have hr : (prodDims w).rhsIdx (ix2 a b) ((contrEquiv1 (prodDims w) k rfl rfl).symm c) = ix2 c b :=
    funext fun ax => Fin.ext (match ax with
      | ⟨0, _⟩ => (rhs_axis0 w _ _).trans hc
      | ⟨1, _⟩ => rhs_axis1 w _ _)
  rw [hl, hr]

end Product

variable [Cert.ReferenceIdeal.Facts]

/-! ## The three layers, each read at an entry as a function of the layer below at the same row -/

/-- Layer 1 at `(p, j)`: the three products of row `p`'s inputs with column `j`'s weights, added in order, plus the bias,
    rectified.  `c0 c1 c2` are the tile's three columns, `r0 r1 r2` the weight matrix's three rows, `b` the bias row. -/
theorem lay1_apply (c0 c1 c2 : FVec Ideal S2048x1 .f32) (r0 r1 r2 b : FVec Ideal S1x64 .f32) (p : Fin 2048) (j : Fin 64) :
    maximumf
        (addf
          (addf
            (addf
              (mulf (broadcastTo S2048x64 c0 broadcasts_S2048x1_S2048x64) (broadcastTo S2048x64 r0 broadcasts_S1x64_S2048x64))
              (mulf (broadcastTo S2048x64 c1 broadcasts_S2048x1_S2048x64) (broadcastTo S2048x64 r1 broadcasts_S1x64_S2048x64)))
            (mulf (broadcastTo S2048x64 c2 broadcasts_S2048x1_S2048x64) (broadcastTo S2048x64 r2 broadcasts_S1x64_S2048x64)))
          (broadcastTo S2048x64 b broadcasts_S1x64_S2048x64))
        (broadcast S2048x64 (Scalar.ofBits (F := Ideal) .f32 0x00000000#32)) (ix2 p j)
      = max (c0 (ix2 p (0 : Fin 1)) * r0 (ix2 (0 : Fin 1) j) + c1 (ix2 p (0 : Fin 1)) * r1 (ix2 (0 : Fin 1) j)
          + c2 (ix2 p (0 : Fin 1)) * r2 (ix2 (0 : Fin 1) j) + b (ix2 (0 : Fin 1) j)) 0 := by
  rw [maximumf_apply, addf_apply, addf_apply, addf_apply, mulf_apply, mulf_apply, mulf_apply, broadcast_apply,
    broadcastTo_a1_ab_apply c0, broadcastTo_a1_ab_apply c1, broadcastTo_a1_ab_apply c2,
    broadcastTo_1b_ab_apply r0, broadcastTo_1b_ab_apply r1, broadcastTo_1b_ab_apply r2, broadcastTo_1b_ab_apply b]
  exact congrArg (max _) Ideal.ofBits_zero_f32

/-- Layer 2 at `(p, k)`: row `p` of layer 1 against column `k` of the weights, plus the bias, rectified. -/
theorem lay2_apply (h : FVec Ideal S2048x64 .f32) (w2 : FVec Ideal S64x256 .f32) (b2 : FVec Ideal S1x256 .f32)
    (p : Fin 2048) (k : Fin 256) :
    maximumf
        (addf (matmul dot_S2048x64_S64x256_S2048x256_1_0_0_1_n_n none h w2 (constant (F := Ideal) S2048x256 .f32 0x00000000#32))
          (broadcastTo S2048x256 b2 broadcasts_S1x256_S2048x256))
        (broadcast S2048x256 (Scalar.ofBits (F := Ideal) .f32 0x00000000#32)) (ix2 p k)
      = max ((∑ j : Fin 64, h (ix2 p j) * w2 (ix2 j k)) + b2 (ix2 (0 : Fin 1) k)) 0 := by
  rw [maximumf_apply, addf_apply, broadcast_apply, broadcastTo_1b_ab_apply b2]
  refine (congrArg (max _) Ideal.ofBits_zero_f32).trans ?_
  exact congrArg (fun t => max (t + b2 (ix2 (0 : Fin 1) k)) 0)
    (matmul_zero_apply dot_S2048x64_S64x256_S2048x256_1_0_0_1_n_n_wf h w2 p k)

/-- The two heads at `(p, r)`: row `p` of layer 2 against column `r` of the head weights, plus the head's bias. -/
theorem heads_apply (h : FVec Ideal S2048x256 .f32) (wh : FVec Ideal S256x2 .f32) (bh : FVec Ideal S1x2 .f32)
    (p : Fin 2048) (r : Fin 2) :
    addf
        (matmul dot_S2048x256_S256x2_S2048x2_1_0_0_1_n_n none h (shapeCast S256x2 wh shapeCasts_S256x2_S256x2)
          (constant (F := Ideal) S2048x2 .f32 0x00000000#32))
        (broadcastTo S2048x2 (shapeCast S1x2 bh shapeCasts_S1x2_S1x2) broadcasts_S1x2_S2048x2) (ix2 p r)
      = (∑ k : Fin 256, h (ix2 p k) * wh (ix2 k r)) + bh (ix2 (0 : Fin 1) r) := by
  rw [shapeCast_self, shapeCast_self, addf_apply, broadcastTo_1b_ab_apply bh]
  exact congrArg (· + bh (ix2 (0 : Fin 1) r))
    (matmul_zero_apply dot_S2048x256_S256x2_S2048x2_1_0_0_1_n_n_wf h wh p r)

/-! ## The chain: the pre-activations of row `p` -/

/-- The one-column slice of the input tile that starts at column `o` is column `o`: at row `p` it reads the tile at `(p, o)`. -/
theorem col_apply (x0 : FVec Ideal S2048x3 .f32) (o : ℕ) (hs : S2048x3.Slices ![0, o] S2048x1) (p : Fin 2048)
    (c : Fin 3) (hc : c.val = o) :
    extractStridedSlice S2048x1 ![0, o] x0 hs (ix2 p (0 : Fin 1)) = x0 (ix2 p c) :=
  slice2_axis1_apply o x0 hs p (0 : Fin 1) c (hc.trans (Nat.add_zero o).symm)

/-- The one-row slice of the layer-1 weights that starts at row `o` is row `o`: at column `j` it reads the weights at
    `(o, j)`. -/
theorem row_apply (x1 : FVec Ideal S3x64 .f32) (o : ℕ) (hs : S3x64.Slices ![o, 0] S1x64) (j : Fin 64)
    (c : Fin 3) (hc : c.val = o) :
    extractStridedSlice S1x64 ![o, 0] x1 hs (ix2 (0 : Fin 1) j) = x1 (ix2 c j) :=
  slice2_axis0_apply o x1 hs (0 : Fin 1) j c (hc.trans (Nat.add_zero o).symm)

/-- The value the body computes before the activations, at `(p, r)`: head `r`'s pre-activation of input row `p`. -/
theorem pay2_apply (x0 : Vec Ideal S2048x3 .f32) (x1 : Vec Ideal S3x64 .f32) (x2 : Vec Ideal S1x64 .f32)
    (x3 : Vec Ideal S64x256 .f32) (x4 : Vec Ideal S1x256 .f32) (x5 : Vec Ideal S256x2 .f32) (x6 : Vec Ideal S1x2 .f32)
    (p : Fin 2048) (r : Fin 2) :
    k0_pay2 (F := Ideal) x0 x1 x2 x3 x4 x5 x6 (ix2 p r) = yR x5 x6 x3 x4 x1 x2 (fun a => x0 (ix2 p a)) r := by
  unfold k0_pay2
  refine (heads_apply _ x5 x6 p r).trans ?_
  unfold yR
  refine congrArg (· + x6 (ix2 (0 : Fin 1) r)) (Finset.sum_congr rfl fun k _ => congrArg (· * x5 (ix2 k r)) ?_)
  refine (lay2_apply _ x3 x4 p k).trans ?_
  unfold h2R
  refine congrArg (fun t => max (t + x4 (ix2 (0 : Fin 1) k)) 0)
    (Finset.sum_congr rfl fun j _ => congrArg (· * x3 (ix2 j k)) ?_)
  refine (lay1_apply _ _ _ _ _ _ x2 p j).trans ?_
  unfold h1R
  rw [col_apply x0 0 _ p 0 rfl, col_apply x0 1 _ p 1 rfl, col_apply x0 2 _ p 2 rfl,
    row_apply x1 0 _ j 0 rfl, row_apply x1 1 _ j 1 rfl, row_apply x1 2 _ j 2 rfl]

/-! ## The two activations and the choice by the column -/

/-- With the hyperbolic tangent taken of the pre-activations themselves, the stored value is the first activation where
    the lane number is 0 and the second elsewhere. -/
theorem pay1_eq (y : FVec Ideal S2048x2 .f32) (l : IVec S2048x2 32) :
    k0_pay1 (F := Ideal) y l (tanh y) (Scalar.ofBits .f32 0x40000000#32)
      = select (cmpi .eq l (broadcast S2048x2 0#32)) (actMu y) (actSd y) := rfl

/-- The one store of the body, at row `p`, column `r` of the tile. -/
theorem pay1_apply (x0 : Vec Ideal S2048x3 .f32) (x1 : Vec Ideal S3x64 .f32) (x2 : Vec Ideal S1x64 .f32)
    (x3 : Vec Ideal S64x256 .f32) (x4 : Vec Ideal S1x256 .f32) (x5 : Vec Ideal S256x2 .f32) (x6 : Vec Ideal S1x2 .f32)
    (p : Fin 2048) (r : Fin 2) :
    k0_pay1 (F := Ideal) (k0_pay2 x0 x1 x2 x3 x4 x5 x6) (iota .tc S2048x2 32 [1] iota_S2048x2_d1_w32)
        (k0_pay3 x0 x1 x2 x3 x4 x5 x6) (Scalar.ofBits .f32 0x40000000#32) (ix2 p r)
      = if r.val = 0 then muS (yR x5 x6 x3 x4 x1 x2 (fun a => x0 (ix2 p a)) 0)
        else sdS (yR x5 x6 x3 x4 x1 x2 (fun a => x0 (ix2 p a)) 1) := by
  refine (congrFun (pay1_eq (k0_pay2 x0 x1 x2 x3 x4 x5 x6) _) (ix2 p r)).trans ?_
  rw [select_apply, actMu_apply, actSd_apply, pay2_apply]
  show Scalar.select (IntOp.cmpi .eq (iota .tc S2048x2 32 [1] iota_S2048x2_d1_w32 (ix2 p r)) 0#32) _ _ = _
  rw [iota_single_apply]
  refine (select_eq0 r.val r.isLt _ _).trans ?_
  by_cases h : r.val = 0
  · obtain rfl : r = 0 := Fin.ext h
    rfl
  · obtain rfl : r = 1 := Fin.ext (by have := r.isLt; omega)
    rfl

end Cert.ReferenceIdeal.Body

end
-- ==== Proof.RefValue.lean ====
import proofs.«155359_g2000502678189943_pallasbulk_312_17_alg».proof.Proof.Gen.ReferenceIdeal.Frame
import proofs.«155359_g2000502678189943_pallasbulk_312_17_alg».proof.Proof.RefBody
import proofs.«155359_g2000502678189943_pallasbulk_312_17_alg».proof.Proof.Spec
import Idealize.ShloMosaic.Lib.ValueIdx
import Idealize.ShloMosaic.Lib.ValueLayout
import Idealize.ShloMosaic.Lib.Pipeline.Value
import Idealize.ShloMosaic.Lib.StableHlo.Run

/-! The row-major program's two results as whole arrays.

    The region writes a 2097152 × 2 array tile by tile, 2048 rows a tile over 1024 points; row `b` lies in tile
    `b / 2048`, and what that point stores at the row depends on row `b` of the batch alone.  So the array after the
    region is, entry by entry, the first activation of head 0 in column 0 and the second activation of head 1 in
    column 1; the two slices after the region take the columns apart. -/

set_option maxRecDepth 16384

noncomputable section

namespace Cert.ReferenceIdeal.Value

open Idealize.ShloMosaic Idealize.ShloMosaic.ValueIdx Idealize.SL.Sem Cert.ReferenceIdeal Cert.ReferenceIdeal.Gen Cert.Net
open Idealize.ShloMosaic.Pipeline (Dat)

variable (m : (ℓ : Loc nD τ sig) → Buf (Elt Ideal) ℓ) (ρ : Dev nD → PrngReg)

/-- The head weights as the region finds them: the two columns side by side. -/
theorem V_v0 (c : Dev nD) :
    (V m c main_v0 : S256x2.Idx → EReal) = catCols (m ((c.tc : Thread nD τ).loc main_arg5)) (m ((c.tc : Thread nD τ).loc main_arg7)) := by
  have e : (V m c main_v0 : S256x2.Idx → EReal)
      = concatenate S256x2 1 [⟨S256x1, m ((c.tc : Thread nD τ).loc main_arg5)⟩, ⟨S256x1, m ((c.tc : Thread nD τ).loc main_arg7)⟩]
          concatenates_S256x1_S256x1_S256x2_d1 := by
    show StableHlo.after hostOps0 (fun b => m (c, b)) (Proc.devRef .tc main_v0) = _
    after_results
  rw [e]
  funext j
  unfold catCols
  have hj : (j 1).val < 2 := idx2_lt1 j
  by_cases h : (j 1).val = 0
  · rw [if_pos h]
    refine concatenate_pair_apply_left (t := S256x2) (s₁ := S256x1) (s₂ := S256x1) (1 : Fin 2)
      (m ((c.tc : Thread nD τ).loc main_arg5)) (m ((c.tc : Thread nD τ).loc main_arg7)) concatenates_S256x1_S256x1_S256x2_d1 j rfl
      (ix2 (⟨(j 0).val, idx2_lt0 j⟩ : Fin 256) (0 : Fin 1)) (fun b => ?_)
    match b with
    | ⟨0, _⟩ => rfl
    | ⟨1, _⟩ => exact h.symm
  · rw [if_neg h]
    refine concatenate_pair_apply_right (t := S256x2) (s₁ := S256x1) (s₂ := S256x1) (1 : Fin 2)
      (m ((c.tc : Thread nD τ).loc main_arg5)) (m ((c.tc : Thread nD τ).loc main_arg7)) concatenates_S256x1_S256x1_S256x2_d1 j rfl rfl
      (ix2 (⟨(j 0).val, idx2_lt0 j⟩ : Fin 256) (0 : Fin 1)) (fun b hb => ?_) ?_
    · match b with
      | ⟨0, _⟩ => rfl
      | ⟨1, _⟩ => exact absurd rfl hb
    · show 0 + 1 = (j 1).val
      omega

/-- The head biases as the region finds them. -/
theorem V_v1 (c : Dev nD) :
    (V m c main_v1 : S1x2.Idx → EReal) = catCols (m ((c.tc : Thread nD τ).loc main_arg6)) (m ((c.tc : Thread nD τ).loc main_arg8)) := by
  have e : (V m c main_v1 : S1x2.Idx → EReal)
      = concatenate S1x2 1 [⟨S1x1, m ((c.tc : Thread nD τ).loc main_arg6)⟩, ⟨S1x1, m ((c.tc : Thread nD τ).loc main_arg8)⟩]
          concatenates_S1x1_S1x1_S1x2_d1 := by
    show StableHlo.after hostOps0 (fun b => m (c, b)) (Proc.devRef .tc main_v1) = _
    after_results
  rw [e]
  funext j
  unfold catCols
  have hj : (j 1).val < 2 := idx2_lt1 j
  by_cases h : (j 1).val = 0
  · rw [if_pos h]
    refine concatenate_pair_apply_left (t := S1x2) (s₁ := S1x1) (s₂ := S1x1) (1 : Fin 2)
      (m ((c.tc : Thread nD τ).loc main_arg6)) (m ((c.tc : Thread nD τ).loc main_arg8)) concatenates_S1x1_S1x1_S1x2_d1 j rfl
      (ix2 (⟨(j 0).val, idx2_lt0 j⟩ : Fin 1) (0 : Fin 1)) (fun b => ?_)
    match b with
    | ⟨0, _⟩ => rfl
    | ⟨1, _⟩ => exact h.symm
  · rw [if_neg h]
    refine concatenate_pair_apply_right (t := S1x2) (s₁ := S1x1) (s₂ := S1x1) (1 : Fin 2)
      (m ((c.tc : Thread nD τ).loc main_arg6)) (m ((c.tc : Thread nD τ).loc main_arg8)) concatenates_S1x1_S1x1_S1x2_d1 j rfl rfl
      (ix2 (⟨(j 0).val, idx2_lt0 j⟩ : Fin 1) (0 : Fin 1)) (fun b hb => ?_) ?_
    · match b with
      | ⟨0, _⟩ => rfl
      | ⟨1, _⟩ => exact absurd rfl hb
    · show 0 + 1 = (j 1).val
      omega

/-! ## The region's result as one array -/

/-- The offsets `![0, 0]` are zero on both axes. -/
theorem zeroOff : (![0, 0] : Fin 2 → Nat) = fun _ => 0 :=
  funext fun a => by match a with | ⟨0, _⟩ => rfl | ⟨1, _⟩ => rfl

/-- Both activations of the two heads' pre-activations, batch row by batch row: column 0 carries the first activation
    of head 0, column 1 the second activation of head 1. -/
def outArr (x : Arr 2097152 3) (w1 : Arr 3 64) (b1 : Arr 1 64) (w2 : Arr 64 256) (b2 : Arr 1 256) (wh : Arr 256 2)
    (bh : Arr 1 2) : Arr 2097152 2 := fun i =>
  if (i 1).val = 0 then muS (yR wh bh w2 b2 w1 b1 (rowOf x ⟨(i 0).val, idx2_lt0 i⟩) 0)
  else sdS (yR wh bh w2 b2 w1 b1 (rowOf x ⟨(i 0).val, idx2_lt0 i⟩) 1)

/-- Where each window's tile sits at point `t`: the batch and the result move one tile of 2048 rows a point, every
    parameter is one whole tile. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The tiles the body reads, as parts of the arrays -/

/-- The batch tile at point `t`. -/
abbrev xblk (c : Dev nD) (t : Fin cfg0.N) : Vec Ideal S2048x3 .f32 := iblk m c 0 t
/-- The parameters' tiles: each is its whole array, at every point. -/
abbrev w1blk (c : Dev nD) (t : Fin cfg0.N) : Vec Ideal S3x64 .f32 := iblk m c 1 t
abbrev b1blk (c : Dev nD) (t : Fin cfg0.N) : Vec Ideal S1x64 .f32 := iblk m c 2 t
abbrev w2blk (c : Dev nD) (t : Fin cfg0.N) : Vec Ideal S64x256 .f32 := iblk m c 3 t
abbrev b2blk (c : Dev nD) (t : Fin cfg0.N) : Vec Ideal S1x256 .f32 := iblk m c 4 t
abbrev whblk (c : Dev nD) (t : Fin cfg0.N) : Vec Ideal S256x2 .f32 := iblk m c 5 t
abbrev bhblk (c : Dev nD) (t : Fin cfg0.N) : Vec Ideal S1x2 .f32 := iblk m c 6 t

/-- A point's tile starts inside the batch: `t * 2048 + p` is a batch row. -/
theorem row_lt (t : Fin cfg0.N) (p : Fin 2048) : t.val * 2048 + p.val < 2097152 := by
  have hN : cfg0.N = 1024 := N_0
  have ht := t.isLt
  have hp := p.isLt
  omega

/-- Row `p` of the batch tile at point `t` is row `t * 2048 + p` of the batch. -/
theorem xblk_apply (c : Dev nD) (t : Fin cfg0.N) (p : Fin 2048) (a : Fin 3) :
    xblk m c t (ix2 p a) = (m ((c.tc : Thread nD τ).loc main_arg0) : S2097152x3.Idx → EReal) (ix2 ⟨t.val * 2048 + p.val, row_lt t p⟩ a) := by
  obtain ⟨e0, e1, -⟩ := tile_index t
  show (((cfg0.win 0).blk t).view.read (Elt Ideal) (V m c main_arg0)) (ix2 p a) = _
  rw [View.read_apply]
  refine (congrArg (V m c main_arg0) ?_).trans (congrFun (V_main_arg0 m c) _)
  funext d
  apply Fin.ext
  match d with
  | ⟨0, _⟩ => show win0_0.index t (0 : Fin 2) * 2048 + 1 * p.val = t.val * 2048 + p.val; omega
  | ⟨1, _⟩ => show win0_0.index t (1 : Fin 2) * 3 + 1 * a.val = a.val; omega

/-- Each parameter's tile is the whole parameter as launched: its tile index is zero on both axes at every point
    (this one and the three after it). -/
theorem w1blk_eq (c : Dev nD) (t : Fin cfg0.N) : w1blk m c t = m ((c.tc : Thread nD τ).loc main_arg1) := by
  obtain ⟨-, -, e0, e1, -⟩ := tile_index t
  funext y
  show (((cfg0.win 1).blk t).view.read (Elt Ideal) (V m c main_arg1)) y = _
  rw [View.read_apply]
  refine (congrArg (V m c main_arg1) ?_).trans (congrFun (V_main_arg1 m c) y)
  funext d
  apply Fin.ext
  match d with
  | ⟨0, _⟩ => show win0_1.index t (0 : Fin 2) * 3 + 1 * (y 0).val = (y 0).val; omega
  | ⟨1, _⟩ => show win0_1.index t (1 : Fin 2) * 64 + 1 * (y 1).val = (y 1).val; omega

theorem b1blk_eq (c : Dev nD) (t : Fin cfg0.N) : b1blk m c t = m ((c.tc : Thread nD τ).loc main_arg2) := by
  obtain ⟨-, -, -, -, e0, e1, -⟩ := tile_index t
  funext y
  show (((cfg0.win 2).blk t).view.read (Elt Ideal) (V m c main_arg2)) y = _
  rw [View.read_apply]
  refine (congrArg (V m c main_arg2) ?_).trans (congrFun (V_main_arg2 m c) y)
  funext d
  apply Fin.ext
  match d with
  | ⟨0, _⟩ => show win0_2.index t (0 : Fin 2) * 1 + 1 * (y 0).val = (y 0).val; omega
  | ⟨1, _⟩ => show win0_2.index t (1 : Fin 2) * 64 + 1 * (y 1).val = (y 1).val; omega

theorem w2blk_eq (c : Dev nD) (t : Fin cfg0.N) : w2blk m c t = m ((c.tc : Thread nD τ).loc main_arg3) := by
  obtain ⟨-, -, -, -, -, -, e0, e1, -⟩ := tile_index t
  funext y
  show (((cfg0.win 3).blk t).view.read (Elt Ideal) (V m c main_arg3)) y = _
  rw [View.read_apply]
  refine (congrArg (V m c main_arg3) ?_).trans (congrFun (V_main_arg3 m c) y)
  funext d
  apply Fin.ext
  match d with
  | ⟨0, _⟩ => show win0_3.index t (0 : Fin 2) * 64 + 1 * (y 0).val = (y 0).val; omega
  | ⟨1, _⟩ => show win0_3.index t (1 : Fin 2) * 256 + 1 * (y 1).val = (y 1).val; omega

theorem b2blk_eq (c : Dev nD) (t : Fin cfg0.N) : b2blk m c t = m ((c.tc : Thread nD τ).loc main_arg4) := by
  obtain ⟨-, -, -, -, -, -, -, -, e0, e1, -⟩ := tile_index t
  funext y
  show (((cfg0.win 4).blk t).view.read (Elt Ideal) (V m c main_arg4)) y = _
  rw [View.read_apply]
  refine (congrArg (V m c main_arg4) ?_).trans (congrFun (V_main_arg4 m c) y)
  funext d
  apply Fin.ext
  match d with
  | ⟨0, _⟩ => show win0_4.index t (0 : Fin 2) * 1 + 1 * (y 0).val = (y 0).val; omega
  | ⟨1, _⟩ => show win0_4.index t (1 : Fin 2) * 256 + 1 * (y 1).val = (y 1).val; omega

/-- The head weights' and head biases' tiles are the whole side-by-side arrays the region finds (this one and the next). -/
theorem whblk_eq (c : Dev nD) (t : Fin cfg0.N) : whblk m c t = (V m c main_v0 : S256x2.Idx → EReal) := by
  obtain ⟨-, -, -, -, -, -, -, -, -, -, e0, e1, -⟩ := tile_index t
  funext y
  show (((cfg0.win 5).blk t).view.read (Elt Ideal) (V m c main_v0)) y = _
  rw [View.read_apply]
  refine congrArg (V m c main_v0) ?_
  funext d
  apply Fin.ext
  match d with
  | ⟨0, _⟩ => show win0_5.index t (0 : Fin 2) * 256 + 1 * (y 0).val = (y 0).val; omega
  | ⟨1, _⟩ => show win0_5.index t (1 : Fin 2) * 2 + 1 * (y 1).val = (y 1).val; omega

theorem bhblk_eq (c : Dev nD) (t : Fin cfg0.N) : bhblk m c t = (V m c main_v1 : S1x2.Idx → EReal) := by
  obtain ⟨-, -, -, -, -, -, -, -, -, -, -, -, e0, e1, -⟩ := tile_index t
  funext y
  show (((cfg0.win 6).blk t).view.read (Elt Ideal) (V m c main_v1)) y = _
  rw [View.read_apply]
  refine congrArg (V m c main_v1) ?_
  funext d
  apply Fin.ext
  match d with
  | ⟨0, _⟩ => show win0_6.index t (0 : Fin 2) * 1 + 1 * (y 0).val = (y 0).val; omega
  | ⟨1, _⟩ => show win0_6.index t (1 : Fin 2) * 2 + 1 * (y 1).val = (y 1).val; omega

/-! ## What a point writes back -/

/-- The body's store at row `p`, column `r` of point `t`'s tile is the result array at batch row `t * 2048 + p`. -/
theorem tile_apply (c : Dev nD) (t : Fin cfg0.N) (p : Fin 2048) (r : Fin 2) :
    k0_pay1 (F := Ideal)
        (k0_pay2 (xblk m c t) (w1blk m c t) (b1blk m c t) (w2blk m c t) (b2blk m c t) (whblk m c t) (bhblk m c t))
        (iota .tc S2048x2 32 [1] iota_S2048x2_d1_w32)
        (k0_pay3 (xblk m c t) (w1blk m c t) (b1blk m c t) (w2blk m c t) (b2blk m c t) (whblk m c t) (bhblk m c t))
        (Scalar.ofBits .f32 0x40000000#32) (ix2 p r)
      = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (V m c main_v0) (V m c main_v1) (ix2 ⟨t.val * 2048 + p.val, row_lt t p⟩ r) := by
  refine (Cert.ReferenceIdeal.Body.pay1_apply (xblk m c t) (w1blk m c t) (b1blk m c t) (w2blk m c t) (b2blk m c t)
    (whblk m c t) (bhblk m c t) p r).trans ?_
  have hrow : (fun a => xblk m c t (ix2 p a))
      = rowOf (m ((c.tc : Thread nD τ).loc main_arg0)) ⟨t.val * 2048 + p.val, row_lt t p⟩ :=
    funext fun a => xblk_apply m c t p a
  rw [hrow, w1blk_eq, b1blk_eq, w2blk_eq, b2blk_eq, whblk_eq, bhblk_eq]
  rfl

/-- WHAT POINT `t` WRITES BACK is its tile of the result array. -/
theorem flushed_eq (c : Dev nD) (t : Fin cfg0.N) :
    (dats m 0 c).flushed 7 t = ((cfg0.win 7).blk t).view.read (Elt Ideal)
      (outArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (V m c main_v0) (V m c main_v1)) := by
  show (cfg0.win 7).cut (grid0.coords t) ((dats m 0 c).after 7 t) = _
  rw [after0_7]
  unfold out0_7
  rw [View.canon_unit_zero zeroOff]
  simp only [View.ld_unit_zero (S := S2048x3) zeroOff, View.ld_unit_zero (S := S3x64) zeroOff,
    View.ld_unit_zero (S := S1x64) zeroOff, View.ld_unit_zero (S := S64x256) zeroOff,
    View.ld_unit_zero (S := S1x256) zeroOff, View.ld_unit_zero (S := S256x2) zeroOff,
    View.ld_unit_zero (S := S1x2) zeroOff]
  obtain ⟨-, -, -, -, -, -, -, -, -, -, -, -, -, -, e0, e1⟩ := tile_index t
  funext j
  refine (congrArg _ (eq_ix2 (n0 := 2048) (n1 := 2) j)).trans ((tile_apply m c t (j 0) (j 1)).trans ?_)
  rw [View.read_apply]
  refine congrArg _ ?_
  funext d
  apply Fin.ext
  match d with
  | ⟨0, _⟩ => show t.val * 2048 + (j 0).val = win0_7.index t (0 : Fin 2) * 2048 + 1 * (j 0).val; omega
  | ⟨1, _⟩ => show (j 1).val = win0_7.index t (1 : Fin 2) * 2 + 1 * (j 1).val; omega

/-! ## The tiles cover the result array -/

/-- An index of the result array lies in point `t`'s tile iff each coordinate lies in the tile's range on its axis. -/
theorem mem_tile (t : Fin cfg0.N) (i : S2097152x2.Idx) :
    i ∈ ((cfg0.win 7).blk t).view.set ↔ ∀ a : Fin 2, win0_7.index t a * S2048x2.size a ≤ (i a).val
      ∧ (i a).val < win0_7.index t a * S2048x2.size a + S2048x2.size a := by
  show i ∈ ((View.whole main_v2).slice (win0_7.rect t)).set ↔ _
  rw [View.set_slice_whole, Rect.mem_set_unit]
  exact Iff.rfl

/-- Batch row `b` lies in the tile of point `b / 2048`, and every point writes its tile back. -/
theorem covered (i : S2097152x2.Idx) :
    ∃ t : Fin cfg0.N, (cfg0.win 7).flush t = true ∧ i ∈ ((cfg0.win 7).blk t).view.set := by
  have hN : cfg0.N = 1024 := N_0
  have h0 : (i 0).val < 2097152 := idx2_lt0 i
  have h1 : (i 1).val < 2 := idx2_lt1 i
  have hq : (i 0).val / 2048 < cfg0.N := by omega
  obtain ⟨-, -, -, -, -, -, -, -, -, -, -, -, -, -, e0, e1⟩ := tile_index ⟨(i 0).val / 2048, hq⟩
  have e0' : win0_7.index ⟨(i 0).val / 2048, hq⟩ (0 : Fin 2) = (i 0).val / 2048 := e0
  refine ⟨⟨(i 0).val / 2048, hq⟩, flush0_7 _, ?_⟩
  rw [mem_tile]
  intro a
  match a with
  | ⟨0, _⟩ =>
    show win0_7.index ⟨(i 0).val / 2048, hq⟩ (0 : Fin 2) * 2048 ≤ (i 0).val
      ∧ (i 0).val < win0_7.index ⟨(i 0).val / 2048, hq⟩ (0 : Fin 2) * 2048 + 2048
    omega
  | ⟨1, _⟩ =>
    show win0_7.index ⟨(i 0).val / 2048, hq⟩ (1 : Fin 2) * 2 ≤ (i 1).val
      ∧ (i 1).val < win0_7.index ⟨(i 0).val / 2048, hq⟩ (1 : Fin 2) * 2 + 2
    omega

/-- THE ARRAY after the region: both activations of the heads' pre-activations, batch row by batch row. -/
theorem final (c : Dev nD) : (dats m 0 c).arrAt 7 cfg0.N
      = (outArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (V m c main_v0) (V m c main_v1)) :=
  (dats m 0 c).arrAt_eq_of_cover 7 _ (fun t _ => flushed_eq m c t) covered

/-! ## The two slices after the region -/

/-- Column 0 of the result array, as a one-column array. -/
theorem slice_mu (x : Arr 2097152 3) (w1 : Arr 3 64) (b1 : Arr 1 64) (w2 : Arr 64 256) (b2 : Arr 1 256) (wh : Arr 256 2)
    (bh : Arr 1 2) :
    extractStridedSlice S2097152x1 ![0, 0] (outArr x w1 b1 w2 b2 wh bh) slices_S2097152x2_S2097152x1_0_0
      = fun i => muS (yR wh bh w2 b2 w1 b1 (rowOf x ⟨(i 0).val, idx2_lt0 i⟩) 0) := by
  funext i
  have h1 : (i 1).val < 1 := idx2_lt1 i
  refine (extractStridedSlice_apply ![0, 0] (outArr x w1 b1 w2 b2 wh bh) slices_S2097152x2_S2097152x1_0_0 i
    (ix2 (⟨(i 0).val, idx2_lt0 i⟩ : Fin 2097152) (0 : Fin 2)) (fun a => ?_)).trans ?_
  · match a with
    | ⟨0, _⟩ => show (i 0).val = 0 + (i 0).val; omega
    | ⟨1, _⟩ => show 0 = 0 + (i 1).val; omega
  · unfold outArr
    exact if_pos rfl

/-- Column 1 of the result array, as a one-column array. -/
theorem slice_sd (x : Arr 2097152 3) (w1 : Arr 3 64) (b1 : Arr 1 64) (w2 : Arr 64 256) (b2 : Arr 1 256) (wh : Arr 256 2)
    (bh : Arr 1 2) :
    extractStridedSlice S2097152x1 ![0, 1] (outArr x w1 b1 w2 b2 wh bh) slices_S2097152x2_S2097152x1_0_1
      = fun i => sdS (yR wh bh w2 b2 w1 b1 (rowOf x ⟨(i 0).val, idx2_lt0 i⟩) 1) := by
  funext i
  have h1 : (i 1).val < 1 := idx2_lt1 i
  refine (extractStridedSlice_apply ![0, 1] (outArr x w1 b1 w2 b2 wh bh) slices_S2097152x2_S2097152x1_0_1 i
    (ix2 (⟨(i 0).val, idx2_lt0 i⟩ : Fin 2097152) (1 : Fin 2)) (fun a => ?_)).trans ?_
  · match a with
    | ⟨0, _⟩ => show (i 0).val = 0 + (i 0).val; omega
    | ⟨1, _⟩ => show 1 = 1 + (i 1).val; omega
  · unfold outArr
    exact if_neg (show ¬ ((1 : Fin 2).val = 0) by decide)

/-- The first result: the slice of column 0 of the array the region left. -/
theorem tail_mu (c : Dev nD) :
    (Pipeline.afterTail₀ cfgs (dats m) 0 (V0 m) [hostOps1] c main_v3 : S2097152x1.Idx → EReal)
      = Gmu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v3) = _
  after_results
  refine (congrArg (fun X : S2097152x2.Idx → EReal => extractStridedSlice S2097152x1 ![0, 0] X slices_S2097152x2_S2097152x1_0_0)
    ((Pipeline.withArrays_arr spec0 launch0.win.arr_inj c (V0 m c) (fun w => (dats m 0 c).arrAt w cfg0.N) 7).trans
      (final m c))).trans ?_
  rw [slice_mu, V_v0, V_v1]
  rfl

/-- The second result: the slice of column 1 of the array the region left. -/
theorem tail_sd (c : Dev nD) :
    (Pipeline.afterTail₀ cfgs (dats m) 0 (V0 m) [hostOps1] c main_v4 : S2097152x1.Idx → EReal)
      = Gsd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v4) = _
  after_results
  refine (congrArg (fun X : S2097152x2.Idx → EReal => extractStridedSlice S2097152x1 ![0, 1] X slices_S2097152x2_S2097152x1_0_1)
    ((Pipeline.withArrays_arr spec0 launch0.win.arr_inj c (V0 m c) (fun w => (dats m 0 c).arrAt w cfg0.N) 7).trans
      (final m c))).trans ?_
  rw [slice_sd, V_v0, V_v1]
  rfl

/-- Every weakly fair execution ends with the two results at the network's two arrays (row arrangement) and the
    arguments unchanged. -/
theorem run_value : θ_run defs (onTc (τ := τ) (main (F := Ideal))) ⟨m, fun _ => 0, ρ⟩ (fun r => ∀ c : Dev nD,
      r.2.mem ((c.tc : Thread nD τ).loc main_v3) = Gmu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v4) = Gsd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v3 (Pipeline.mem_restRefs_of main_v3 (by decide) (by decide))).trans (tail_mu m c),
      ((h c).2 main_v4 (Pipeline.mem_restRefs_of main_v4 (by decide) (by decide))).trans (tail_sd m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.ReferenceIdeal.Value

end
-- ==== Proof.Math.lean ====
import proofs.«155359_g2000502678189943_pallasbulk_312_17_alg».proof.Proof.Spec

/-! The two arrangements of the network agree on real inputs.

    In the column arrangement every layer's inner sum runs over the stacked index.  On a real weight `w` the
    remainder `w − w` is `0`, so the columns that carry remainders contribute nothing; the columns of ones carry the
    bias; what is left is the row arrangement's sum, its products commuted. -/

noncomputable section

open scoped BigOperators

namespace Cert.Net

open Idealize.ShloMosaic Idealize.ShloMosaic.ValueIdx

/-! ## Real numbers among the extended reals -/

/-- A real number minus itself is zero (for `⊤` and `⊥` the difference is `⊥`, so realness is needed). -/
theorem IsReal.sub_self {a : EReal} (h : IsReal a) : a - a = 0 := EReal.sub_self h.1 h.2

/-! ## Sums over short index sets, written out -/

/-- A sum over eleven indices, written out. -/
theorem sum_fin11 (f : Fin 11 → EReal) :
    ∑ i, f i = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- A sum over `64 + 2` indices: the first 64, then the last two. -/
theorem sum_fin66 (f : Fin 66 → EReal) :
    ∑ j, f j = (∑ j : Fin 64, f j.castSucc.castSucc) + f 64 + f 65 := by
  rw [Fin.sum_univ_castSucc, Fin.sum_univ_castSucc]
  rfl

/-! ## Layer 1 -/

section Layer1

variable (w1 : Arr 3 64) (b1 : Arr 1 64) (x : Fin 3 → EReal) (j : Fin 64)

/-- The eleven entries of row `j` of layer 1's operand. -/
theorem W1S_0 : W1S w1 b1 (ix2 j 0) = w1 (ix2 0 j) := rfl
theorem W1S_1 : W1S w1 b1 (ix2 j 1) = w1 (ix2 1 j) := rfl
theorem W1S_2 : W1S w1 b1 (ix2 j 2) = w1 (ix2 2 j) := rfl
theorem W1S_3 : W1S w1 b1 (ix2 j 3) = w1 (ix2 0 j) - w1 (ix2 0 j) := rfl
theorem W1S_4 : W1S w1 b1 (ix2 j 4) = w1 (ix2 1 j) - w1 (ix2 1 j) := rfl
theorem W1S_5 : W1S w1 b1 (ix2 j 5) = w1 (ix2 2 j) - w1 (ix2 2 j) := rfl
theorem W1S_6 : W1S w1 b1 (ix2 j 6) = w1 (ix2 0 j) := rfl
theorem W1S_7 : W1S w1 b1 (ix2 j 7) = w1 (ix2 1 j) := rfl
theorem W1S_8 : W1S w1 b1 (ix2 j 8) = w1 (ix2 2 j) := rfl
theorem W1S_9 : W1S w1 b1 (ix2 j 9) = b1 (ix2 0 j) := rfl
theorem W1S_10 : W1S w1 b1 (ix2 j 10) = b1 (ix2 0 j) - b1 (ix2 0 j) := rfl

/-- The eleven entries of the stacked input column. -/
theorem xsK_0 : xsK x 0 = x 0 := rfl
theorem xsK_1 : xsK x 1 = x 1 := rfl
theorem xsK_2 : xsK x 2 = x 2 := rfl
theorem xsK_3 : xsK x 3 = x 0 := rfl
theorem xsK_4 : xsK x 4 = x 1 := rfl
theorem xsK_5 : xsK x 5 = x 2 := rfl
theorem xsK_6 : xsK x 6 = x 0 - x 0 := rfl
theorem xsK_7 : xsK x 7 = x 1 - x 1 := rfl
theorem xsK_8 : xsK x 8 = x 2 - x 2 := rfl
theorem xsK_9 : xsK x 9 = 1 := rfl
theorem xsK_10 : xsK x 10 = 1 := rfl

/-- Layer 1's stacked sum is the three products and the bias: the six remainder columns and the bias's remainder
    are zero on real numbers. -/
theorem h1K_eq (hx : ∀ a, IsReal (x a)) (hw1 : ∀ p, IsReal (w1 p)) (hb1 : ∀ p, IsReal (b1 p)) :
    h1K (W1S w1 b1) x j = h1R w1 b1 x j := by
  unfold h1K h1R
  congr 1
  rw [sum_fin11,
    W1S_0, W1S_1, W1S_2, W1S_3, W1S_4, W1S_5, W1S_6, W1S_7, W1S_8, W1S_9, W1S_10,
    xsK_0, xsK_1, xsK_2, xsK_3, xsK_4, xsK_5, xsK_6, xsK_7, xsK_8, xsK_9, xsK_10,
    (hw1 (ix2 0 j)).sub_self, (hw1 (ix2 1 j)).sub_self, (hw1 (ix2 2 j)).sub_self,
    (hx 0).sub_self, (hx 1).sub_self, (hx 2).sub_self, (hb1 (ix2 0 j)).sub_self]
  simp only [zero_mul, mul_zero, add_zero, mul_one]
  rw [mul_comm (w1 (ix2 0 j)), mul_comm (w1 (ix2 1 j)), mul_comm (w1 (ix2 2 j))]

end Layer1

/-! ## Layer 2 -/

section Layer2

variable (w2 : Arr 64 256) (b2 : Arr 1 256) (w1s : Arr 64 11) (x : Fin 3 → EReal) (k : Fin 256)

/-- Row `k` of layer 2's operand: the transposed weights, then the bias, then the bias's remainder. -/
theorem W2S_lo (j : Fin 64) : W2S w2 b2 (ix2 k j.castSucc.castSucc) = w2 (ix2 j k) :=
  dif_pos j.isLt
theorem W2S_64 : W2S w2 b2 (ix2 k 64) = b2 (ix2 0 k) := rfl
theorem W2S_65 : W2S w2 b2 (ix2 k 65) = b2 (ix2 0 k) - b2 (ix2 0 k) := rfl

/-- The stacked layer-1 output: the 64 activations, then two ones. -/
theorem hsK_lo (j : Fin 64) : hsK w1s x j.castSucc.castSucc = h1K w1s x j := dif_pos j.isLt
theorem hsK_64 : hsK w1s x 64 = 1 := rfl
theorem hsK_65 : hsK w1s x 65 = 1 := rfl

end Layer2

/-- Layer 2's stacked sum is the inner sum over the 64 activations plus the bias. -/
theorem h2K_eq (w2 : Arr 64 256) (b2 : Arr 1 256) (w1 : Arr 3 64) (b1 : Arr 1 64) (x : Fin 3 → EReal)
    (hx : ∀ a, IsReal (x a)) (hw1 : ∀ p, IsReal (w1 p)) (hb1 : ∀ p, IsReal (b1 p)) (hb2 : ∀ p, IsReal (b2 p))
    (k : Fin 256) :
    h2K (W2S w2 b2) (W1S w1 b1) x k = h2R w2 b2 w1 b1 x k := by
  unfold h2K h2R
  congr 1
  rw [sum_fin66, W2S_64, W2S_65, hsK_64, hsK_65, (hb2 (ix2 0 k)).sub_self, zero_mul, add_zero, mul_one]
  congr 1
  refine Finset.sum_congr rfl fun j _ => ?_
  rw [W2S_lo, hsK_lo, h1K_eq w1 b1 x j hx hw1 hb1, mul_comm]

/-- The head pre-activations of the two arrangements agree when the input row, the first layer's weights and the
    two hidden biases are real. -/
theorem yK_eq_yR (wh : Arr 256 2) (bh : Arr 1 2) (w2 : Arr 64 256) (b2 : Arr 1 256) (w1 : Arr 3 64) (b1 : Arr 1 64)
    (x : Fin 3 → EReal) (hx : ∀ a, IsReal (x a)) (hw1 : ∀ p, IsReal (w1 p)) (hb1 : ∀ p, IsReal (b1 p))
    (hb2 : ∀ p, IsReal (b2 p)) (r : Fin 2) :
    yK (whT wh) (bhT bh) (W2S w2 b2) (W1S w1 b1) x r = yR wh bh w2 b2 w1 b1 x r := by
  unfold yK yR
  rw [bhT_apply]
  congr 1
  refine Finset.sum_congr rfl fun k _ => ?_
  rw [whT_apply, h2K_eq w2 b2 w1 b1 x hx hw1 hb1 hb2 k, mul_comm]

theorem GmuK_eq (x : Arr 2097152 3) (w1 : Arr 3 64) (b1 : Arr 1 64) (w2 : Arr 64 256) (b2 : Arr 1 256)
    (wmu : Arr 256 1) (bmu : Arr 1 1) (wsd : Arr 256 1) (bsd : Arr 1 1)
    (hx : ∀ p, IsReal (x p)) (hw1 : ∀ p, IsReal (w1 p)) (hb1 : ∀ p, IsReal (b1 p)) (hb2 : ∀ p, IsReal (b2 p)) :
    GmuK x w1 b1 w2 b2 wmu bmu wsd bsd = Gmu x w1 b1 w2 b2 wmu bmu wsd bsd := by
  funext i
  exact congrArg muS (yK_eq_yR _ _ _ _ _ _ _ (fun a => hx _) hw1 hb1 hb2 0)

theorem GsdK_eq (x : Arr 2097152 3) (w1 : Arr 3 64) (b1 : Arr 1 64) (w2 : Arr 64 256) (b2 : Arr 1 256)
    (wmu : Arr 256 1) (bmu : Arr 1 1) (wsd : Arr 256 1) (bsd : Arr 1 1)
    (hx : ∀ p, IsReal (x p)) (hw1 : ∀ p, IsReal (w1 p)) (hb1 : ∀ p, IsReal (b1 p)) (hb2 : ∀ p, IsReal (b2 p)) :
    GsdK x w1 b1 w2 b2 wmu bmu wsd bsd = Gsd x w1 b1 w2 b2 wmu bmu wsd bsd := by
  funext i
  exact congrArg sdS (yK_eq_yR _ _ _ _ _ _ _ (fun a => hx _) hw1 hb1 hb2 1)

end Cert.Net

end
-- ==== Proof.Finite.lean ====
import proofs.«155359_g2000502678189943_pallasbulk_312_17_alg».proof.Pre_finite_inputs
import proofs.«155359_g2000502678189943_pallasbulk_312_17_alg».proof.Proof.Gen.Pre_finite_inputs
import proofs.«155359_g2000502678189943_pallasbulk_312_17_alg».proof.Proof.Spec
import Idealize.ShloMosaic.Lib.ReduceAll

/-! What the precondition says: every entry of every input array is a real number.

    The precondition is a conjunction, over the nine arrays, of "all entries satisfy |a| < +∞"; an extended real
    whose absolute value is below +∞ is neither +∞ nor −∞. -/

noncomputable section

namespace Cert.Net

open Idealize.ShloMosaic Idealize.ShloMosaic.ValueIdx Cert.Pre_finite_inputs

/-- An extended real whose absolute value `max x (-x)` lies below +∞ is a real number: at +∞ the maximum is +∞
    itself, and at −∞ its negation is. -/
theorem isReal_of_abs_lt_top (x : EReal) (h : max x (-x) < ⊤) : IsReal x := by
  induction x using EReal.rec with
  | bot => simp at h
  | top => simp at h
  | coe r => exact ⟨EReal.coe_ne_top r, EReal.coe_ne_bot r⟩

/-- The ordered comparison "less than" that came out true says the first number is below the second. -/
theorem lt_of_cmp_olt (u v : EReal) (h : Ideal.cmp .olt u v = 1#1) : u < v := by
  by_contra hlt
  simp [Ideal.cmp, hlt] at h

/-- One conjunct of the precondition, for an array of any shape: if "|a| < +∞ at every entry", taken as the
    conjunction over all entries, is true, then every entry of `a` is a real number. -/
theorem isReal_of_all_lt_inf {S : Shape} {axes : List (Fin S.rank)}
    (hb : S_.BroadcastsInDim S (![] : Fin 0 → Fin S.rank)) (hr : S.ReducesTo axes S_) (h0 : 0 < S_.numel)
    (a : FVec Ideal S .f32)
    (e : Host.reduce IntOp.andi
        (cmpf .olt (Host.absf a) (broadcastInDim S ![] hb (constant (F := Ideal) S_ .f32 0x7F800000#32)))
        (constantI S_ 1 1#1) hr h0 ix0 = 1#1) :
    ∀ p, IsReal (a p) := by
  intro p
  haveI : Subsingleton S_.Idx := ⟨fun a b => funext fun d => d.elim0⟩
  have h1 := Host.reduce_andi_all _ _ hr h0 ix0 e p
  have h2 : Ideal.cmp .olt (max (a p) (-(a p))) (Ideal.ofBits .f32 0x7F800000#32) = 1#1 := h1
  have h3 : Ideal.ofBits .f32 0x7F800000#32 = (⊤ : EReal) := by simp [Ideal.ofBits, Ideal.ieee]
  rw [h3] at h2
  exact isReal_of_abs_lt_top _ (lt_of_cmp_olt _ _ h2)

/-- From the precondition at the ideal instance: the entries of the input batch, of the first layer's weights and of
    the two hidden biases are real numbers (the other arrays' entries are too; the proof of equivalence does not use it). -/
theorem finite_of_fn [Cert.Pre_finite_inputs.Facts] (a0 : FVec Ideal S2097152x3 .f32) (a1 : FVec Ideal S3x64 .f32)
    (a2 : FVec Ideal S1x64 .f32) (a3 : FVec Ideal S64x256 .f32) (a4 : FVec Ideal S1x256 .f32) (a5 : FVec Ideal S256x1 .f32)
    (a6 : FVec Ideal S1x1 .f32) (a7 : FVec Ideal S256x1 .f32) (a8 : FVec Ideal S1x1 .f32)
    (h : Cert.Pre_finite_inputs.fn (F := Ideal) a0 a1 a2 a3 a4 a5 a6 a7 a8 = fun _ => 1#1) :
    (∀ p, IsReal (a0 p)) ∧ (∀ p, IsReal (a1 p)) ∧ (∀ p, IsReal (a2 p)) ∧ (∀ p, IsReal (a4 p)) := by
  have h43 := congrFun h ix0
  dsimp only [fn, fn_part1, fn_part2] at h43
  -- the nine conjuncts, peeled from the outside in; the arrays of the second layer's weights and of the heads are dropped
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, e4⟩ := IntOp.andi_eq_one.1 h23
  obtain ⟨h13, -⟩ := IntOp.andi_eq_one.1 h18
  obtain ⟨h8, e2⟩ := IntOp.andi_eq_one.1 h13
  obtain ⟨e0, e1⟩ := IntOp.andi_eq_one.1 h8
  exact ⟨isReal_of_all_lt_inf _ _ _ a0 e0, isReal_of_all_lt_inf _ _ _ a1 e1, isReal_of_all_lt_inf _ _ _ a2 e2,
    isReal_of_all_lt_inf _ _ _ a4 e4⟩

end Cert.Net

end
-- ==== Proof.Preserves.lean ====
import proofs.«155359_g2000502678189943_pallasbulk_312_17_alg».proof.Defs
import Idealize.ShloMosaic.PureOps.IdealRules

/-! The one rewrite the idealization made: in the body, the input tile is narrowed to the 16-bit format and widened
    back before it is subtracted from itself; on extended reals both changes of format are the identity, so the
    widened value is the tile itself. -/

noncomputable section

namespace Cert.Net

open Idealize.ShloMosaic

/-- Narrowing then widening a 3 × 16384 tile is the identity at the ideal instance. -/
theorem preserves : Cert.preserves_Kernel_KernelIdeal :=
  -- bf16 is the narrower format (16 < 32 bits); at the ideal instance both format changes are the identity map, and at
  -- the bit-level instance the round trip is, entry by entry, the rounding through bf16: both hold by unfolding.
  IdealRules.truncf_extf.statement Cert.KernelIdeal.S3x16384 .f32 .bf16

end Cert.Net

end
-- ==== Proof.lean ====
import proofs.«155359_g2000502678189943_pallasbulk_312_17_alg».proof.Defs
import proofs.«155359_g2000502678189943_pallasbulk_312_17_alg».proof.Proof.Gen.Kernel
import proofs.«155359_g2000502678189943_pallasbulk_312_17_alg».proof.Proof.Gen.KernelIdeal
import proofs.«155359_g2000502678189943_pallasbulk_312_17_alg».proof.Proof.Gen.ReferenceIdeal
import proofs.«155359_g2000502678189943_pallasbulk_312_17_alg».proof.Proof.Gen.ReferenceIdeal.Frame
import proofs.«155359_g2000502678189943_pallasbulk_312_17_alg».proof.Proof.Gen.Pre_finite_inputs
import proofs.«155359_g2000502678189943_pallasbulk_312_17_alg».proof.Proof.KFrame
import proofs.«155359_g2000502678189943_pallasbulk_312_17_alg».proof.Proof.KFrameBits
import proofs.«155359_g2000502678189943_pallasbulk_312_17_alg».proof.Proof.KerValue
import proofs.«155359_g2000502678189943_pallasbulk_312_17_alg».proof.Proof.RefValue
import proofs.«155359_g2000502678189943_pallasbulk_312_17_alg».proof.Proof.Math
import proofs.«155359_g2000502678189943_pallasbulk_312_17_alg».proof.Proof.Finite
import proofs.«155359_g2000502678189943_pallasbulk_312_17_alg».proof.Proof.Preserves
import Idealize.ShloMosaic.Adequacy
import Idealize.ShloMosaic.Init

/-! A policy network (3 → 64 → 256 → two heads, `2·tanh` and `softplus + 0.001`) computed two ways.

    The transposed program keeps the batch on the second axis and makes every layer ONE matrix product: each weight and
    bias is split into a leading 16-bit part and the remainder, the parts are stacked into one operand matrix per layer,
    and the activations are stacked over rows of ones, so that the bias rides in the product.  The row-major program
    multiplies, adds the bias and rectifies, layer by layer.

    On extended reals a change of format is the identity: the leading part of `w` is `w` and its remainder is `w − w`,
    which is `0` exactly when `w` is a real number.  Under the precondition (all inputs real) the stacked products
    collapse to "weights times activations plus bias" and the two programs compute the same two arrays
    (`Cert.Net.Gmu`, `Cert.Net.Gsd`), entry by entry.

    The three frames: each program is host lines, one region, host lines; no argument array is written.  The one
    rewrite of the idealization (narrow, then widen back) is the identity on extended reals. -/

noncomputable section

namespace Cert.Proof

open Idealize.ShloMosaic Idealize.SL.Sem Cert.Net

/-- The two programs, from memories agreeing on the arguments, end with the same two result arrays. -/
theorem algebraic : @Cert.algebraic_KernelIdeal_ReferenceIdeal Cert.KernelIdeal.Gen.facts Cert.ReferenceIdeal.Gen.facts Cert.Pre_finite_inputs.Gen.facts := by
  intro m g m' g' hpre hagree
  refine ⟨fun c => Gmu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => Gsd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run (Cert.KernelIdeal.defs (F := Ideal)) _ _).mono (fun r h c => ?_) (Cert.KernelIdeal.Value.run_value m g)
    obtain ⟨hx, hw1, hb1, hb2⟩ := finite_of_fn _ _ _ _ _ _ _ _ _ (hpre c)
    obtain ⟨h26, h27, hk⟩ := h c
    exact ⟨h26.trans (GmuK_eq _ _ _ _ _ _ _ _ _ hx hw1 hb1 hb2), h27.trans (GsdK_eq _ _ _ _ _ _ _ _ _ hx hw1 hb1 hb2), hk⟩
  · refine (θ_run (Cert.ReferenceIdeal.defs (F := Ideal)) _ _).mono (fun r h c => ?_) (Cert.ReferenceIdeal.Value.run_value m' g')
    obtain ⟨h3, h4, hk⟩ := h c
    obtain ⟨a0, a1, a2, a3, a4, a5, a6, a7, a8⟩ := hagree c
    refine ⟨h3.trans ?_, h4.trans ?_, hk⟩
    · rw [a0, a1, a2, a3, a4, a5, a6, a7, a8]
    · rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Gen.frame m ρ,
  Cert.Net.preserves,
  algebraic⟩

end Cert.Proof

end
